-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S1x64 .f32) (main_arg6 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16384x128 .f32) (main_arg1 : FVec F S64x128 .f32) (main_arg2 : FVec F S64 .f32) (main_arg3 : FVec F S64x64 .f32) (main_arg4 : FVec F S64 .f32) (main_arg5 : FVec F S1x64 .f32) (main_arg6 : FVec F S1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S16384x128 : Shape := ⟨2, ![16384, 128]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S8x16384 : Shape := ⟨2, ![8, 16384]⟩
abbrev S1024x128 : Shape := ⟨2, ![1024, 128]⟩
abbrev S8x4096 : Shape := ⟨2, ![8, 4096]⟩
abbrev S8x64 : Shape := ⟨2, ![8, 64]⟩
abbrev S1024x64 : Shape := ⟨2, ![1024, 64]⟩
abbrev S8x1024 : Shape := ⟨2, ![8, 1024]⟩
abbrev S_ : Shape := ⟨0, ![]⟩
abbrev S16384 : Shape := ⟨1, ![16384]⟩
abbrev S16384x1 : Shape := ⟨2, ![16384, 1]⟩

abbrev nBuf : Space → Nat
  | .hbm => 16
  | .vmem => 15
  | .smem => 0
  | _ => 0

abbrev bufTy : (tb : Table) → Fin (tcTables nBuf tb) → BufTy
  | .hbm, ⟨0, _⟩ => ⟨S16384x128, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S1x64, .f32⟩
  | .hbm, ⟨8, _⟩ => ⟨S1x64, .f32⟩
  | .hbm, ⟨9, _⟩ => ⟨S8x16384, .f32⟩
  | .hbm, ⟨10, _⟩ => ⟨S_, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S16384x1, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S64x128, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S8x4096, .f32⟩
  | .local _ .vmem, ⟨14, _⟩ => ⟨S8x4096, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64_S1x64 : S64.ShapeCasts S1x64
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8x64 : S1x64.Broadcasts S8x64
  inb_S1024x128_S1024x128_0_0 : ∀ a, (![0, 0] : Fin 2 → Nat) a + S1024x128.size a ≤ S1024x128.size a
  h_S1024x128 : 0 < S1024x128.numel
  broadcasts_S1x64_S1024x64 : S1x64.Broadcasts S1024x64
  inb_S8x4096_S8x1024_0_0 : ∀ a, (![0, 0] : Fin 2 → Nat) a + S8x1024.size a ≤ S8x4096.size a
  h_S8x1024 : 0 < S8x1024.numel
  inb_S8x4096_S8x1024_0_1024 : ∀ a, (![0, 1024] : Fin 2 → Nat) a + S8x1024.size a ≤ S8x4096.size a
  inb_S8x4096_S8x1024_0_2048 : ∀ a, (![0, 2048] : Fin 2 → Nat) a + S8x1024.size a ≤ S8x4096.size a
  inb_S8x4096_S8x1024_0_3072 : ∀ a, (![0, 3072] : Fin 2 → Nat) a + S8x1024.size a ≤ S8x4096.size a
  reducesTo_S8x16384_S16384_d0 : S8x16384.ReducesTo [0] S16384
  h_S_ : 0 < S_.numel
  shapeCasts_S1_S_ : S1.ShapeCasts S_
  bcast_S_S16384 : S_.BroadcastsInDim S16384 (![] : Fin 0 → Fin S16384.rank)
  shapeCasts_S16384_S16384x1 : S16384.ShapeCasts S16384x1
  dot_S1024x128_S64x128_S1024x64_1_1_0_0_n_n_wf : DotDims.WF S1024x128 S64x128 S1024x64 [1] [1] [0] [0] [] []
  dot_S1024x64_S64x64_S1024x64_1_1_0_0_n_n_wf : DotDims.WF S1024x64 S64x64 S1024x64 [1] [1] [0] [0] [] []
  dot_S8x64_S1024x64_S8x1024_1_1_0_0_n_n_wf : DotDims.WF S8x64 S1024x64 S8x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S16384x128.size a
  hwx0_2 : ∀ i : grid0.Coords, EltTy.bits .f32 = 32 ∨ (Rect.block (s := S16384x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x4096.size a ≤ S8x16384.size a
  hwx0_9 : ∀ i : grid0.Coords, EltTy.bits .f32 = 32 ∨ (Rect.block (s := S8x16384) S8x4096.size (cc0_transform_9 i) (hinb0_9 i)).WholeWords (EltTy.packing .f32)

variable [Facts₀]

def dot_S1024x128_S64x128_S1024x64_1_1_0_0_n_n : DotDims S1024x128 S64x128 S1024x64 where
  lhsContracting := [1]
  rhsContracting := [1]
  lhsNonContracting := [0]
  rhsNonContracting := [0]
  lhsBatch := []
  rhsBatch := []
  wf := dot_S1024x128_S64x128_S1024x64_1_1_0_0_n_n_wf
def dot_S1024x64_S64x64_S1024x64_1_1_0_0_n_n : DotDims S1024x64 S64x64 S1024x64 where
  lhsContracting := [1]
  rhsContracting := [1]
  lhsNonContracting := [0]
  rhsNonContracting := [0]
  lhsBatch := []
  rhsBatch := []
  wf := dot_S1024x64_S64x64_S1024x64_1_1_0_0_n_n_wf
def dot_S8x64_S1024x64_S8x1024_1_1_0_0_n_n : DotDims S8x64 S1024x64 S8x1024 where
  lhsContracting := [1]
  rhsContracting := [1]
  lhsNonContracting := [0]
  rhsNonContracting := [0]
  lhsBatch := []
  rhsBatch := []
  wf := dot_S8x64_S1024x64_S8x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S8x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x128 : Shape := ⟨2, ![16384, 128]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S128x64 : Shape := ⟨2, ![128, 64]⟩
abbrev S16384x64 : Shape := ⟨2, ![16384, 64]⟩
abbrev S_ : Shape := ⟨0, ![]⟩
abbrev S64x1 : Shape := ⟨2, ![64, 1]⟩
abbrev S16384x1 : Shape := ⟨2, ![16384, 1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S128x64, .f32⟩
  | .hbm, ⟨8, _⟩ => ⟨S16384x64, .f32⟩
  | .hbm, ⟨9, _⟩ => ⟨S1x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384x64, .f32⟩
  | .hbm, ⟨14, _⟩ => ⟨S16384x64, .f32⟩
  | .hbm, ⟨15, _⟩ => ⟨S64x64, .f32⟩
  | .hbm, ⟨16, _⟩ => ⟨S16384x64, .f32⟩
  | .hbm, ⟨17, _⟩ => ⟨S1x64, .f32⟩
  | .hbm, ⟨18, _⟩ => ⟨S16384x64, .f32⟩
  | .hbm, ⟨19, _⟩ => ⟨S16384x64, .f32⟩
  | .hbm, ⟨20, _⟩ => ⟨S_, .f32⟩
  | .hbm, ⟨21, _⟩ => ⟨S16384x64, .f32⟩
  | .hbm, ⟨22, _⟩ => ⟨S16384x64, .f32⟩
  | .hbm, ⟨23, _⟩ => ⟨S64x1, .f32⟩
  | .hbm, ⟨24, _⟩ => ⟨S16384x1, .f32⟩
  | .hbm, ⟨25, _⟩ => ⟨S1x1, .f32⟩
  | .hbm, ⟨26, _⟩ => ⟨S16384x1, .f32⟩
  | .hbm, ⟨27, _⟩ => ⟨S16384x1, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x128_S128x64_S16384x64_1_0_0_1_n_n_wf : DotDims.WF S16384x128 S128x64 S16384x64 [1] [0] [0] [1] [] []
  dot_S16384x64_S64x64_S16384x64_1_0_0_1_n_n_wf : DotDims.WF S16384x64 S64x64 S16384x64 [1] [0] [0] [1] [] []
  dot_S16384x64_S64x1_S16384x1_1_0_0_1_n_n_wf : DotDims.WF S16384x64 S64x1 S16384x1 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.KBody.lean ====
/-
  One grid point of the kernel. The body loads its nine input buffers whole — four 1024-row slices of the step's
  input rows, the two weight matrices, the two bias rows and the head row — and stores the [8, 4096] output buffer in
  four slices of 1024 columns, slice `s` holding the eight-row head tile of input slice `s`. Stated here: the output
  buffer after the body as the canon of those four stores over the loaded values (`out0_9`), that the four slices
  tile the buffer (`cover0_9`), and the body's triple (`sound_kernel0`): from the inputs at read contents and the
  output at anything, to the inputs unchanged and the output at `out0_9` of them. For any float instance.
-/
import proofs.«181375_g33157147525407_cont_8to1_b_505_23_alg».proof.Proof.Gen.Kernel.Launch
import proofs.«181375_g33157147525407_cont_8to1_b_505_23_alg».proof.Proof.Gen.Kernel.Skeleton
import proofs.«181375_g33157147525407_cont_8to1_b_505_23_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The rectangles the body loads and stores through

Every input buffer is loaded whole; the [8, 4096] output buffer is stored in four column slices of 1024 columns,
one per 1024-row slice of the step's input rows. -/

abbrev rX : Rect S1024x128 := Rect.unit (s := S1024x128) ![0, 0] S1024x128.size inb_S1024x128_S1024x128_0_0
abbrev rW1 : Rect S64x128 := Rect.unit (s := S64x128) ![0, 0] S64x128.size inb_S64x128_S64x128_0_0
abbrev rW2 : Rect S64x64 := Rect.unit (s := S64x64) ![0, 0] S64x64.size inb_S64x64_S64x64_0_0
abbrev rB : Rect S1x64 := Rect.unit (s := S1x64) ![0, 0] S1x64.size inb_S1x64_S1x64_0_0
abbrev rO0 : Rect S8x4096 := Rect.unit (s := S8x4096) ![0, 0] S8x1024.size inb_S8x4096_S8x1024_0_0
abbrev rO1 : Rect S8x4096 := Rect.unit (s := S8x4096) ![0, 1024] S8x1024.size inb_S8x4096_S8x1024_0_1024
abbrev rO2 : Rect S8x4096 := Rect.unit (s := S8x4096) ![0, 2048] S8x1024.size inb_S8x4096_S8x1024_0_2048
abbrev rO3 : Rect S8x4096 := Rect.unit (s := S8x4096) ![0, 3072] S8x1024.size inb_S8x4096_S8x1024_0_3072

/-! ## What the body leaves in the output buffer -/

/-- The output buffer after the body, from the nine input buffers' contents: its four column slices, the last
    stored first. Slice `s` holds the eight-row head tile of input slice `s` (`x1` … `x4`) under the weights
    `w1 b1 w2 b2 w3`; the four payloads are one function of their slice, spelt four ways by the body's text. -/
def out0_9 (x1 x2 x3 x4 : Vec F S1024x128 .f32) (w1 : Vec F S64x128 .f32) (b1 : Vec F S1x64 .f32) (w2 : Vec F S64x64 .f32)
    (b2 : Vec F S1x64 .f32) (w3 : Vec F S1x64 .f32) : Vec F S8x4096 .f32 :=
  View.canon
    [⟨rO3, k0_pay1 (k0_pay5 (View.ld b2 rB)) (k0_pay6 (View.ld w3 rB))
        (k0_pay11 (k0_pay2 (View.ld w1 rW1)) (k0_pay3 (View.ld w2 rW2)) (k0_pay4 (View.ld b1 rB)) (View.ld x4 rX))⟩,
     ⟨rO2, k0_pay10 (k0_pay2 (View.ld w1 rW1)) (k0_pay3 (View.ld w2 rW2)) (k0_pay4 (View.ld b1 rB)) (k0_pay5 (View.ld b2 rB))
        (k0_pay6 (View.ld w3 rB)) (View.ld x3 rX)⟩,
     ⟨rO1, k0_pay9 (k0_pay3 (View.ld w2 rW2)) (k0_pay4 (View.ld b1 rB)) (k0_pay5 (View.ld b2 rB)) (k0_pay6 (View.ld w3 rB))
        (k0_pay8 (View.ld w1 rW1) (View.ld x2 rX))⟩,
     ⟨rO0, k0_pay7 (View.ld w1 rW1) (View.ld w2 rW2) (View.ld b1 rB) (View.ld b2 rB) (View.ld w3 rB) (View.ld x1 rX)⟩]

/-- The four column slices tile the buffer, so they cover it. -/
theorem cover0_9 (p3 p2 p1 p0 : Vec F S8x1024 .f32) (y : S8x4096.Idx) :
    ∃ pc ∈ ([⟨rO3, p3⟩, ⟨rO2, p2⟩, ⟨rO1, p1⟩, ⟨rO0, p0⟩] : List (View.Piece (Elt F) S8x4096 .f32)), y ∈ pc.1.set :=
  View.cover_of_tiled [⟨rO3, p3⟩, ⟨rO2, p2⟩, ⟨rO1, p1⟩, ⟨rO0, p0⟩] S8x1024.size (by rfl) y

/-! ## The body's triple -/

set_option maxHeartbeats 1000000 in
/-- The kernel body on whole staging memrefs — the nine inputs' at read contents, the output's at anything — runs to
    the continuation holding the inputs' as they were and the output's at `out0_9` of the inputs'. -/
theorem sound_kernel0 (c : Dev nD) (E : Set ℕ) (i : grid0.Coords)
    (arg1 : Memref sig .tc .vmem S1024x128 .f32) (harg1 : arg1.IsWhole) (arg2 : Memref sig .tc .vmem S1024x128 .f32) (harg2 : arg2.IsWhole)
    (arg3 : Memref sig .tc .vmem S1024x128 .f32) (harg3 : arg3.IsWhole) (arg4 : Memref sig .tc .vmem S1024x128 .f32) (harg4 : arg4.IsWhole)
    (arg5 : Memref sig .tc .vmem S64x128 .f32) (harg5 : arg5.IsWhole) (arg6 : Memref sig .tc .vmem S1x64 .f32) (harg6 : arg6.IsWhole)
    (arg7 : Memref sig .tc .vmem S64x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S8x4096 .f32) (harg10 : arg10.IsWhole)
    (x1 x2 x3 x4 : Vec F S1024x128 .f32) (w1 : Vec F S64x128 .f32) (b1 : Vec F S1x64 .f32) (w2 : Vec F S64x64 .f32) (b2 : Vec F S1x64 .f32) (w3 : Vec F S1x64 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare w1 ∗ owns (c : Thread nD τ) arg6 fullShare b1
        ∗ owns (c : Thread nD τ) arg7 fullShare w2 ∗ owns (c : Thread nD τ) arg8 fullShare b2 ∗ owns (c : Thread nD τ) arg9 fullShare w3
        ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare w1 ∗ owns (c : Thread nD τ) arg6 fullShare b1
            ∗ owns (c : Thread nD τ) arg7 fullShare w2 ∗ owns (c : Thread nD τ) arg8 fullShare b2 ∗ owns (c : Thread nD τ) arg9 fullShare w3
            ∗ owns (c : Thread nD τ) arg10 fullShare (out0_9 x1 x2 x3 x4 w1 b1 w2 b2 w3)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  iexists _; isplitr
  swap; · iexact H10
  ipureintro
  sl_unfold_words
  exact View.read_writes_eq_canon _ _ _ (cover0_9 _ _ _ _)

end Cert.Kernel.Body

end
-- ==== Proof.KDat.lean ====
/-
  The pipeline's proof data. After the body at grid point `t` each input window's staging buffer holds the window's
  block of its array as the region found it, and the output window's holds `out0_9` of the nine input blocks. The
  four windows that read the one input array (each a different quarter of the step's rows) hold it at a quarter of
  its share each; nothing is owed; the invariant is the untouched rest of the core. Every input buffer holds its
  block at every point, fetched there or not (the weights' and biases' block index never moves), so the body's
  triple gives the body obligation at a generic point. For any float instance.
-/
import proofs.«181375_g33157147525407_cont_8to1_b_505_23_alg».proof.Proof.KBody

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The shares of the input array

Windows 0 to 3 all read the one input array, each a different quarter of the step's rows. The array is only read,
so each window holds a quarter of its full share: the two halves of each half. -/

abbrev q00 : PosShare TreeShare := fullShare.left.left
abbrev q01 : PosShare TreeShare := fullShare.left.right
abbrev q10 : PosShare TreeShare := fullShare.right.left
abbrev q11 : PosShare TreeShare := fullShare.right.right

/-! ## The pipeline's proof data -/

/-- The proof data of the pipeline on core `c`: the arrays as the region finds them; after the body at point `t`
    each input's buffer at its block and the output's at `out0_9` of the input blocks; the invariant the scoped rest
    and the generator register, untouched; nothing owed; the input array's share dealt in quarters. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t)
        (iblk0 V c 6 t) (iblk0 V c 7 t) (iblk0 V c 8 t)
  Φ _ := Pipeline.ΦA spec0 c
  q w := match w with
    | ⟨0, _⟩ => q00
    | ⟨1, _⟩ => q01
    | ⟨2, _⟩ => q10
    | ⟨3, _⟩ => q11
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t)
    (iblk0 V c 4 t) (iblk0 V c 5 t) (iblk0 V c 6 t) (iblk0 V c 7 t) (iblk0 V c 8 t) := by dsimp only [dat0]

/-! ## Each input's current staging buffer holds its block at every point

Fetched at the point, the buffer holds the block; not fetched (the weights and biases, whose block index never
moves), the previous point's block is this point's. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t)
    (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Body

end
-- ==== Proof.KRegion.lean ====
/-
  The whole run of @main: two reshapes of the biases, the pallas_call, then the sum over the eight head rows with the
  last bias added. The buffer contents are folded through it — at launch, after the reshapes (the region's entry),
  after the region (only the result array changes: the nine input windows read), after the closing operations — and
  every argument's buffer walks back through the fold to its launch contents. At the region's entry the input
  array, which four windows read, has its full share dealt to them in quarters; at the exit the quarters are put
  back, so that the closing operations find every buffer whole. @main is then three segments, and the run says: every
  weakly fair execution ends, nothing faulting, with every unscoped buffer at the fold's last contents. Both frame
  claims and the value claim are read off that. For any float instance.
-/
import proofs.«181375_g33157147525407_cont_8to1_b_505_23_alg».proof.Proof.KDat

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! # The arrays of the pipeline as chains

The ten windows stand on seven distinct buffers: windows 0 to 3 on the input array, the others each on its own. -/

section Chains

variable (V : (c : Dev nD) → (b : Ref sig .tc) → Buf (Elt F) ((c : Thread nD τ).loc b))

/-- The distinct buffers behind the windows' arrays, one by one. -/
theorem arrBufs_chain (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg1) ↦{fullShare} Vc main_arg1)
          ∗ (((c : Thread nD τ).loc main_v0) ↦{fullShare} Vc main_v0) ∗ (((c : Thread nD τ).loc main_arg3) ↦{fullShare} Vc main_arg3)
          ∗ (((c : Thread nD τ).loc main_v1) ↦{fullShare} Vc main_v1) ∗ (((c : Thread nD τ).loc main_arg5) ↦{fullShare} Vc main_arg5)
          ∗ (((c : Thread nD τ).loc main_v2) ↦{fullShare} Vc main_v2)) := by
  unfold Pipeline.arrBufs
  exact bigSep_eq_bigSepL_of_eq [main_arg0, main_arg1, main_v0, main_arg3, main_v1, main_arg5, main_v2] (by decide) (by decide) _

/-- The proof data's arrays, window by window: whole buffers, the input array at a quarter share four times. -/
theorem arrays_chain (c : Dev nD) (Fw : (w : Fin cfg0.W) → Buf (Elt F) ((cfg0.win w).arr.view.loc (c : Thread nD τ))) :
    (dat0 V c).arrays Fw
      = iprop((((c : Thread nD τ).loc main_arg0) ↦{q00} Fw 0) ∗ (((c : Thread nD τ).loc main_arg0) ↦{q01} Fw 1)
          ∗ (((c : Thread nD τ).loc main_arg0) ↦{q10} Fw 2) ∗ (((c : Thread nD τ).loc main_arg0) ↦{q11} Fw 3)
          ∗ (((c : Thread nD τ).loc main_arg1) ↦{fullShare} Fw 4) ∗ (((c : Thread nD τ).loc main_v0) ↦{fullShare} Fw 5)
          ∗ (((c : Thread nD τ).loc main_arg3) ↦{fullShare} Fw 6) ∗ (((c : Thread nD τ).loc main_v1) ↦{fullShare} Fw 7)
          ∗ (((c : Thread nD τ).loc main_arg5) ↦{fullShare} Fw 8) ∗ (((c : Thread nD τ).loc main_v2) ↦{fullShare} Fw 9)) := by
  unfold Dat.arrays
  rw [bigSep_congr (fun w _ => by rw [(arr_whole0 w).set_eq_univ])]
  rw [bigSep_W0]
  rfl

/-- The full share of a buffer dealt in quarters, -/
theorem quarters_split {ℓ : Loc nD τ sig} (f : Buf (Elt F) ℓ) :
    (ℓ ↦{fullShare} f : sProp 𝕄) ⊢ iprop((ℓ ↦{q00} f) ∗ (ℓ ↦{q01} f) ∗ (ℓ ↦{q10} f) ∗ (ℓ ↦{q11} f)) := by
  iintro H
  ihave H := (pointsTo_share (PosShare.mem_left_op_right fullShare)).1 $$ H
  icases H with ⟨HL, HR⟩
  ihave HL := (pointsTo_share (PosShare.mem_left_op_right fullShare.left)).1 $$ HL
  icases HL with ⟨H0, H1⟩
  ihave HR := (pointsTo_share (PosShare.mem_left_op_right fullShare.right)).1 $$ HR
  icases HR with ⟨H2, H3⟩
  isplitl [H0]; · iexact H0
  isplitl [H1]; · iexact H1
  isplitl [H2]; · iexact H2
  iexact H3

/-- and the quarters put back. -/
theorem quarters_join {ℓ : Loc nD τ sig} (f : Buf (Elt F) ℓ) :
    iprop((ℓ ↦{q00} f) ∗ (ℓ ↦{q01} f) ∗ (ℓ ↦{q10} f) ∗ (ℓ ↦{q11} f)) ⊢ (ℓ ↦{fullShare} f : sProp 𝕄) := by
  iintro ⟨H0, H1, H2, H3⟩
  iapply (pointsTo_share (PosShare.mem_left_op_right fullShare)).2
  isplitl [H0 H1]
  · iapply (pointsTo_share (PosShare.mem_left_op_right fullShare.left)).2
    isplitl [H0]; · iexact H0
    iexact H1
  · iapply (pointsTo_share (PosShare.mem_left_op_right fullShare.right)).2
    isplitl [H2]; · iexact H2
    iexact H3

end Chains

/-! # The run: @main's segments from the launch to the return -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two reshapes of the biases (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: the output array at what the write-backs leave, every other buffer as entered (the nine
    input windows only read their arrays). -/
def W2 (c : Dev nD) : Valuation τ sig (Elt F) :=
  Function.update (W1 m ρ c) (Proc.devRef .tc main_v2) ((dat0 (V1 m ρ) c).arrAt 9 cfg0.N)
theorem W2_out (c : Dev nD) : W2 m ρ c (Proc.devRef .tc main_v2) = (dat0 (V1 m ρ) c).arrAt 9 cfg0.N := by
  unfold W2; exact Function.update_self ..
theorem W2_of_ne (c : Dev nD) (b : Ref sig .tc) (hb : b ≠ main_v2) :
    W2 m ρ c (Proc.devRef .tc b) = W1 m ρ c (Proc.devRef .tc b) := by
  unfold W2; exact Function.update_of_ne (StableHlo.devRef_ne_of_ne hb) _ _
/-- The same read at the TensorCore's references (the region's exit contents). -/
abbrev V2 : (c : Dev nD) → (b : Ref sig .tc) → Buf (Elt F) ((c : Thread nD τ).loc b) := fun c b => W2 m ρ c b
/-- After the six host operations that follow the region (the return). -/
abbrev W3 : Dev nD → Valuation τ sig (Elt F) := fun c => StableHlo.after hostOps1 (W2 m ρ c)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## Entry and exit of the region: the arrays out of the unscoped buffers and back -/

/-- ENTRY: the core's unscoped buffers at the entry contents are the proof data's arrays at entry — the input
    array's full share dealt in quarters to its four windows — and the unscoped rest. -/
theorem entry_split (c : Dev nD) :
    (unscopedBufs (Ix := Unit) (Name := ℕ) (U := UR sig nD τ) (Lvl := ℕ) c (V1 m ρ c) : sProp 𝕄)
      ⊢ iprop((dat0 (V1 m ρ) c).arrays ((dat0 (V1 m ρ) c).arrAt · 0)
          ∗ Pipeline.unscopedRest (Ix := Unit) (Name := ℕ) (U := UR sig nD τ) (Lvl := ℕ) spec0 c (V1 m ρ c)) := by
  rw [Pipeline.unscopedBufs_split₀ cfgs 0 winFacts₀0.arr_unscoped c (V1 m ρ c)]
  refine sep_mono ?_ .rfl
  rw [arrBufs_chain, arrays_chain]
  iintro ⟨Ha0, Ha1, Hv0, Ha3, Hv1, Ha5, Hv2⟩
  ihave Hq := quarters_split _ $$ Ha0
  icases Hq with ⟨H0, H1, H2, H3⟩
  isplitl [H0]; · iexact H0
  isplitl [H1]; · iexact H1
  isplitl [H2]; · iexact H2
  isplitl [H3]; · iexact H3
  isplitl [Ha1]; · iexact Ha1
  isplitl [Hv0]; · iexact Hv0
  isplitl [Ha3]; · iexact Ha3
  isplitl [Hv1]; · iexact Hv1
  isplitl [Ha5]; · iexact Ha5
  iexact Hv2

/-- An input window's array is never written: at the end it holds what it held at entry. -/
theorem arrAt_in_eq (c : Dev nD) (w : Fin cfg0.W) (hw : (cfg0.win w).isOut = false) :
    (dat0 (V1 m ρ) c).arrAt w cfg0.N = V1 m ρ c (Pipeline.arrRef spec0 w) :=
  ((dat0 (V1 m ρ) c).arrAt_in w hw _).trans (A_eq0 (V1 m ρ) c w)

/-- EXIT: the arrays at their final contents and the unscoped rest are the core's unscoped buffers at the exit
    contents — the quarters of the input array put back. -/
theorem exit_join (c : Dev nD) :
    iprop((dat0 (V1 m ρ) c).arrays ((dat0 (V1 m ρ) c).arrAt · cfg0.N)
        ∗ Pipeline.unscopedRest (Ix := Unit) (Name := ℕ) (U := UR sig nD τ) (Lvl := ℕ) spec0 c (V1 m ρ c))
      ⊢ (unscopedBufs (Ix := Unit) (Name := ℕ) (U := UR sig nD τ) (Lvl := ℕ) c (V2 m ρ c) : sProp 𝕄) := by
  rw [Pipeline.unscopedBufs_split₀ cfgs 0 winFacts₀0.arr_unscoped c (V2 m ρ c)]
  refine sep_mono ?_ (Entails.of_eq ?_)
  · rw [arrBufs_chain, arrays_chain]
    rw [show V2 m ρ c main_arg0 = V1 m ρ c main_arg0 from W2_of_ne m ρ c main_arg0 (by decide),
      show V2 m ρ c main_arg1 = V1 m ρ c main_arg1 from W2_of_ne m ρ c main_arg1 (by decide),
      show V2 m ρ c main_v0 = V1 m ρ c main_v0 from W2_of_ne m ρ c main_v0 (by decide),
      show V2 m ρ c main_arg3 = V1 m ρ c main_arg3 from W2_of_ne m ρ c main_arg3 (by decide),
      show V2 m ρ c main_v1 = V1 m ρ c main_v1 from W2_of_ne m ρ c main_v1 (by decide),
      show V2 m ρ c main_arg5 = V1 m ρ c main_arg5 from W2_of_ne m ρ c main_arg5 (by decide),
      show V2 m ρ c main_v2 = (dat0 (V1 m ρ) c).arrAt 9 cfg0.N from W2_out m ρ c]
    rw [arrAt_in_eq m ρ c 0 rfl, arrAt_in_eq m ρ c 1 rfl, arrAt_in_eq m ρ c 2 rfl, arrAt_in_eq m ρ c 3 rfl, arrAt_in_eq m ρ c 4 rfl,
      arrAt_in_eq m ρ c 5 rfl, arrAt_in_eq m ρ c 6 rfl, arrAt_in_eq m ρ c 7 rfl, arrAt_in_eq m ρ c 8 rfl]
    iintro ⟨H0, H1, H2, H3, Ha1, Hv0, Ha3, Hv1, Ha5, Hv2⟩
    isplitl [H0 H1 H2 H3]
    · iapply (quarters_join _)
      isplitl [H0]; · iexact H0
      isplitl [H1]; · iexact H1
      isplitl [H2]; · iexact H2
      iexact H3
    isplitl [Ha1]; · iexact Ha1
    isplitl [Hv0]; · iexact Hv0
    isplitl [Ha3]; · iexact Ha3
    isplitl [Hv1]; · iexact Hv1
    isplitl [Ha5]; · iexact Ha5
    iexact Hv2
  · unfold Pipeline.unscopedRest
    refine bigSep_congr fun b hb => ?_
    have hne : b ≠ main_v2 := fun e => (Finset.mem_sdiff.mp hb).2 (Finset.mem_image.mpr ⟨9, Finset.mem_univ _, e.symm ▸ rfl⟩)
    rw [show V2 m ρ c b = V1 m ρ c b from W2_of_ne m ρ c b hne]

/-! ## The proof data family and the thread state -/

/-- The prefetched tables' admissible contents: the pipeline has no table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the last stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at
    some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every unscoped buffer at `W1`, left at `W2`. Its arrays split
    out of the unscoped buffers (the input array's share in quarters) and put back at the exit contents; the
    generator register into the invariant and out; nothing owed; no semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments in order: the biases' reshapes, the region, the sum over the eight head rows with the
    bias added. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state each unscoped buffer of each core holds the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Body

end
-- ==== Proof.KIBody.lean ====
/-
  One grid point of the kernel. The body loads its nine input buffers whole — four 1024-row slices of the step's
  input rows, the two weight matrices, the two bias rows and the head row — and stores the [8, 4096] output buffer in
  four slices of 1024 columns, slice `s` holding the eight-row head tile of input slice `s`. Stated here: the output
  buffer after the body as the canon of those four stores over the loaded values (`out0_9`), that the four slices
  tile the buffer (`cover0_9`), and the body's triple (`sound_kernel0`): from the inputs at read contents and the
  output at anything, to the inputs unchanged and the output at `out0_9` of them. For any float instance.
-/
import proofs.«181375_g33157147525407_cont_8to1_b_505_23_alg».proof.Proof.Gen.KernelIdeal.Launch
import proofs.«181375_g33157147525407_cont_8to1_b_505_23_alg».proof.Proof.Gen.KernelIdeal.Skeleton
import proofs.«181375_g33157147525407_cont_8to1_b_505_23_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The rectangles the body loads and stores through

Every input buffer is loaded whole; the [8, 4096] output buffer is stored in four column slices of 1024 columns,
one per 1024-row slice of the step's input rows. -/

abbrev rX : Rect S1024x128 := Rect.unit (s := S1024x128) ![0, 0] S1024x128.size inb_S1024x128_S1024x128_0_0
abbrev rW1 : Rect S64x128 := Rect.unit (s := S64x128) ![0, 0] S64x128.size inb_S64x128_S64x128_0_0
abbrev rW2 : Rect S64x64 := Rect.unit (s := S64x64) ![0, 0] S64x64.size inb_S64x64_S64x64_0_0
abbrev rB : Rect S1x64 := Rect.unit (s := S1x64) ![0, 0] S1x64.size inb_S1x64_S1x64_0_0
abbrev rO0 : Rect S8x4096 := Rect.unit (s := S8x4096) ![0, 0] S8x1024.size inb_S8x4096_S8x1024_0_0
abbrev rO1 : Rect S8x4096 := Rect.unit (s := S8x4096) ![0, 1024] S8x1024.size inb_S8x4096_S8x1024_0_1024
abbrev rO2 : Rect S8x4096 := Rect.unit (s := S8x4096) ![0, 2048] S8x1024.size inb_S8x4096_S8x1024_0_2048
abbrev rO3 : Rect S8x4096 := Rect.unit (s := S8x4096) ![0, 3072] S8x1024.size inb_S8x4096_S8x1024_0_3072

/-! ## What the body leaves in the output buffer -/

/-- The output buffer after the body, from the nine input buffers' contents: its four column slices, the last
    stored first. Slice `s` holds the eight-row head tile of input slice `s` (`x1` … `x4`) under the weights
    `w1 b1 w2 b2 w3`; the four payloads are one function of their slice, spelt four ways by the body's text. -/
def out0_9 (x1 x2 x3 x4 : Vec F S1024x128 .f32) (w1 : Vec F S64x128 .f32) (b1 : Vec F S1x64 .f32) (w2 : Vec F S64x64 .f32)
    (b2 : Vec F S1x64 .f32) (w3 : Vec F S1x64 .f32) : Vec F S8x4096 .f32 :=
  View.canon
    [⟨rO3, k0_pay1 (k0_pay5 (View.ld b2 rB)) (k0_pay6 (View.ld w3 rB))
        (k0_pay11 (k0_pay2 (View.ld w1 rW1)) (k0_pay3 (View.ld w2 rW2)) (k0_pay4 (View.ld b1 rB)) (View.ld x4 rX))⟩,
     ⟨rO2, k0_pay10 (k0_pay2 (View.ld w1 rW1)) (k0_pay3 (View.ld w2 rW2)) (k0_pay4 (View.ld b1 rB)) (k0_pay5 (View.ld b2 rB))
        (k0_pay6 (View.ld w3 rB)) (View.ld x3 rX)⟩,
     ⟨rO1, k0_pay9 (k0_pay3 (View.ld w2 rW2)) (k0_pay4 (View.ld b1 rB)) (k0_pay5 (View.ld b2 rB)) (k0_pay6 (View.ld w3 rB))
        (k0_pay8 (View.ld w1 rW1) (View.ld x2 rX))⟩,
     ⟨rO0, k0_pay7 (View.ld w1 rW1) (View.ld w2 rW2) (View.ld b1 rB) (View.ld b2 rB) (View.ld w3 rB) (View.ld x1 rX)⟩]

/-- The four column slices tile the buffer, so they cover it. -/
theorem cover0_9 (p3 p2 p1 p0 : Vec F S8x1024 .f32) (y : S8x4096.Idx) :
    ∃ pc ∈ ([⟨rO3, p3⟩, ⟨rO2, p2⟩, ⟨rO1, p1⟩, ⟨rO0, p0⟩] : List (View.Piece (Elt F) S8x4096 .f32)), y ∈ pc.1.set :=
  View.cover_of_tiled [⟨rO3, p3⟩, ⟨rO2, p2⟩, ⟨rO1, p1⟩, ⟨rO0, p0⟩] S8x1024.size (by rfl) y

/-! ## The body's triple -/

set_option maxHeartbeats 1000000 in
/-- The kernel body on whole staging memrefs — the nine inputs' at read contents, the output's at anything — runs to
    the continuation holding the inputs' as they were and the output's at `out0_9` of the inputs'. -/
theorem sound_kernel0 (c : Dev nD) (E : Set ℕ) (i : grid0.Coords)
    (arg1 : Memref sig .tc .vmem S1024x128 .f32) (harg1 : arg1.IsWhole) (arg2 : Memref sig .tc .vmem S1024x128 .f32) (harg2 : arg2.IsWhole)
    (arg3 : Memref sig .tc .vmem S1024x128 .f32) (harg3 : arg3.IsWhole) (arg4 : Memref sig .tc .vmem S1024x128 .f32) (harg4 : arg4.IsWhole)
    (arg5 : Memref sig .tc .vmem S64x128 .f32) (harg5 : arg5.IsWhole) (arg6 : Memref sig .tc .vmem S1x64 .f32) (harg6 : arg6.IsWhole)
    (arg7 : Memref sig .tc .vmem S64x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S8x4096 .f32) (harg10 : arg10.IsWhole)
    (x1 x2 x3 x4 : Vec F S1024x128 .f32) (w1 : Vec F S64x128 .f32) (b1 : Vec F S1x64 .f32) (w2 : Vec F S64x64 .f32) (b2 : Vec F S1x64 .f32) (w3 : Vec F S1x64 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare w1 ∗ owns (c : Thread nD τ) arg6 fullShare b1
        ∗ owns (c : Thread nD τ) arg7 fullShare w2 ∗ owns (c : Thread nD τ) arg8 fullShare b2 ∗ owns (c : Thread nD τ) arg9 fullShare w3
        ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare w1 ∗ owns (c : Thread nD τ) arg6 fullShare b1
            ∗ owns (c : Thread nD τ) arg7 fullShare w2 ∗ owns (c : Thread nD τ) arg8 fullShare b2 ∗ owns (c : Thread nD τ) arg9 fullShare w3
            ∗ owns (c : Thread nD τ) arg10 fullShare (out0_9 x1 x2 x3 x4 w1 b1 w2 b2 w3)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  iexists _; isplitr
  swap; · iexact H10
  ipureintro
  sl_unfold_words
  exact View.read_writes_eq_canon _ _ _ (cover0_9 _ _ _ _)

end Cert.KernelIdeal.Body

end
-- ==== Proof.KIDat.lean ====
/-
  The pipeline's proof data. After the body at grid point `t` each input window's staging buffer holds the window's
  block of its array as the region found it, and the output window's holds `out0_9` of the nine input blocks. The
  four windows that read the one input array (each a different quarter of the step's rows) hold it at a quarter of
  its share each; nothing is owed; the invariant is the untouched rest of the core. Every input buffer holds its
  block at every point, fetched there or not (the weights' and biases' block index never moves), so the body's
  triple gives the body obligation at a generic point. For any float instance.
-/
import proofs.«181375_g33157147525407_cont_8to1_b_505_23_alg».proof.Proof.KIBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The shares of the input array

Windows 0 to 3 all read the one input array, each a different quarter of the step's rows. The array is only read,
so each window holds a quarter of its full share: the two halves of each half. -/

abbrev q00 : PosShare TreeShare := fullShare.left.left
abbrev q01 : PosShare TreeShare := fullShare.left.right
abbrev q10 : PosShare TreeShare := fullShare.right.left
abbrev q11 : PosShare TreeShare := fullShare.right.right

/-! ## The pipeline's proof data -/

/-- The proof data of the pipeline on core `c`: the arrays as the region finds them; after the body at point `t`
    each input's buffer at its block and the output's at `out0_9` of the input blocks; the invariant the scoped rest
    and the generator register, untouched; nothing owed; the input array's share dealt in quarters. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t)
        (iblk0 V c 6 t) (iblk0 V c 7 t) (iblk0 V c 8 t)
  Φ _ := Pipeline.ΦA spec0 c
  q w := match w with
    | ⟨0, _⟩ => q00
    | ⟨1, _⟩ => q01
    | ⟨2, _⟩ => q10
    | ⟨3, _⟩ => q11
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t)
    (iblk0 V c 4 t) (iblk0 V c 5 t) (iblk0 V c 6 t) (iblk0 V c 7 t) (iblk0 V c 8 t) := by dsimp only [dat0]

/-! ## Each input's current staging buffer holds its block at every point

Fetched at the point, the buffer holds the block; not fetched (the weights and biases, whose block index never
moves), the previous point's block is this point's. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t)
    (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Body

end
-- ==== Proof.KIRegion.lean ====
/-
  The whole run of @main: two reshapes of the biases, the pallas_call, then the sum over the eight head rows with the
  last bias added. The buffer contents are folded through it — at launch, after the reshapes (the region's entry),
  after the region (only the result array changes: the nine input windows read), after the closing operations — and
  every argument's buffer walks back through the fold to its launch contents. At the region's entry the input
  array, which four windows read, has its full share dealt to them in quarters; at the exit the quarters are put
  back, so that the closing operations find every buffer whole. @main is then three segments, and the run says: every
  weakly fair execution ends, nothing faulting, with every unscoped buffer at the fold's last contents. Both frame
  claims and the value claim are read off that. For any float instance.
-/
import proofs.«181375_g33157147525407_cont_8to1_b_505_23_alg».proof.Proof.KIDat

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! # The arrays of the pipeline as chains

The ten windows stand on seven distinct buffers: windows 0 to 3 on the input array, the others each on its own. -/

section Chains

variable (V : (c : Dev nD) → (b : Ref sig .tc) → Buf (Elt F) ((c : Thread nD τ).loc b))

/-- The distinct buffers behind the windows' arrays, one by one. -/
theorem arrBufs_chain (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg1) ↦{fullShare} Vc main_arg1)
          ∗ (((c : Thread nD τ).loc main_v0) ↦{fullShare} Vc main_v0) ∗ (((c : Thread nD τ).loc main_arg3) ↦{fullShare} Vc main_arg3)
          ∗ (((c : Thread nD τ).loc main_v1) ↦{fullShare} Vc main_v1) ∗ (((c : Thread nD τ).loc main_arg5) ↦{fullShare} Vc main_arg5)
          ∗ (((c : Thread nD τ).loc main_v2) ↦{fullShare} Vc main_v2)) := by
  unfold Pipeline.arrBufs
  exact bigSep_eq_bigSepL_of_eq [main_arg0, main_arg1, main_v0, main_arg3, main_v1, main_arg5, main_v2] (by decide) (by decide) _

/-- The proof data's arrays, window by window: whole buffers, the input array at a quarter share four times. -/
theorem arrays_chain (c : Dev nD) (Fw : (w : Fin cfg0.W) → Buf (Elt F) ((cfg0.win w).arr.view.loc (c : Thread nD τ))) :
    (dat0 V c).arrays Fw
      = iprop((((c : Thread nD τ).loc main_arg0) ↦{q00} Fw 0) ∗ (((c : Thread nD τ).loc main_arg0) ↦{q01} Fw 1)
          ∗ (((c : Thread nD τ).loc main_arg0) ↦{q10} Fw 2) ∗ (((c : Thread nD τ).loc main_arg0) ↦{q11} Fw 3)
          ∗ (((c : Thread nD τ).loc main_arg1) ↦{fullShare} Fw 4) ∗ (((c : Thread nD τ).loc main_v0) ↦{fullShare} Fw 5)
          ∗ (((c : Thread nD τ).loc main_arg3) ↦{fullShare} Fw 6) ∗ (((c : Thread nD τ).loc main_v1) ↦{fullShare} Fw 7)
          ∗ (((c : Thread nD τ).loc main_arg5) ↦{fullShare} Fw 8) ∗ (((c : Thread nD τ).loc main_v2) ↦{fullShare} Fw 9)) := by
  unfold Dat.arrays
  rw [bigSep_congr (fun w _ => by rw [(arr_whole0 w).set_eq_univ])]
  rw [bigSep_W0]
  rfl

/-- The full share of a buffer dealt in quarters, -/
theorem quarters_split {ℓ : Loc nD τ sig} (f : Buf (Elt F) ℓ) :
    (ℓ ↦{fullShare} f : sProp 𝕄) ⊢ iprop((ℓ ↦{q00} f) ∗ (ℓ ↦{q01} f) ∗ (ℓ ↦{q10} f) ∗ (ℓ ↦{q11} f)) := by
  iintro H
  ihave H := (pointsTo_share (PosShare.mem_left_op_right fullShare)).1 $$ H
  icases H with ⟨HL, HR⟩
  ihave HL := (pointsTo_share (PosShare.mem_left_op_right fullShare.left)).1 $$ HL
  icases HL with ⟨H0, H1⟩
  ihave HR := (pointsTo_share (PosShare.mem_left_op_right fullShare.right)).1 $$ HR
  icases HR with ⟨H2, H3⟩
  isplitl [H0]; · iexact H0
  isplitl [H1]; · iexact H1
  isplitl [H2]; · iexact H2
  iexact H3

/-- and the quarters put back. -/
theorem quarters_join {ℓ : Loc nD τ sig} (f : Buf (Elt F) ℓ) :
    iprop((ℓ ↦{q00} f) ∗ (ℓ ↦{q01} f) ∗ (ℓ ↦{q10} f) ∗ (ℓ ↦{q11} f)) ⊢ (ℓ ↦{fullShare} f : sProp 𝕄) := by
  iintro ⟨H0, H1, H2, H3⟩
  iapply (pointsTo_share (PosShare.mem_left_op_right fullShare)).2
  isplitl [H0 H1]
  · iapply (pointsTo_share (PosShare.mem_left_op_right fullShare.left)).2
    isplitl [H0]; · iexact H0
    iexact H1
  · iapply (pointsTo_share (PosShare.mem_left_op_right fullShare.right)).2
    isplitl [H2]; · iexact H2
    iexact H3

end Chains

/-! # The run: @main's segments from the launch to the return -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two reshapes of the biases (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: the output array at what the write-backs leave, every other buffer as entered (the nine
    input windows only read their arrays). -/
def W2 (c : Dev nD) : Valuation τ sig (Elt F) :=
  Function.update (W1 m ρ c) (Proc.devRef .tc main_v2) ((dat0 (V1 m ρ) c).arrAt 9 cfg0.N)
theorem W2_out (c : Dev nD) : W2 m ρ c (Proc.devRef .tc main_v2) = (dat0 (V1 m ρ) c).arrAt 9 cfg0.N := by
  unfold W2; exact Function.update_self ..
theorem W2_of_ne (c : Dev nD) (b : Ref sig .tc) (hb : b ≠ main_v2) :
    W2 m ρ c (Proc.devRef .tc b) = W1 m ρ c (Proc.devRef .tc b) := by
  unfold W2; exact Function.update_of_ne (StableHlo.devRef_ne_of_ne hb) _ _
/-- The same read at the TensorCore's references (the region's exit contents). -/
abbrev V2 : (c : Dev nD) → (b : Ref sig .tc) → Buf (Elt F) ((c : Thread nD τ).loc b) := fun c b => W2 m ρ c b
/-- After the six host operations that follow the region (the return). -/
abbrev W3 : Dev nD → Valuation τ sig (Elt F) := fun c => StableHlo.after hostOps1 (W2 m ρ c)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## Entry and exit of the region: the arrays out of the unscoped buffers and back -/

/-- ENTRY: the core's unscoped buffers at the entry contents are the proof data's arrays at entry — the input
    array's full share dealt in quarters to its four windows — and the unscoped rest. -/
theorem entry_split (c : Dev nD) :
    (unscopedBufs (Ix := Unit) (Name := ℕ) (U := UR sig nD τ) (Lvl := ℕ) c (V1 m ρ c) : sProp 𝕄)
      ⊢ iprop((dat0 (V1 m ρ) c).arrays ((dat0 (V1 m ρ) c).arrAt · 0)
          ∗ Pipeline.unscopedRest (Ix := Unit) (Name := ℕ) (U := UR sig nD τ) (Lvl := ℕ) spec0 c (V1 m ρ c)) := by
  rw [Pipeline.unscopedBufs_split₀ cfgs 0 winFacts₀0.arr_unscoped c (V1 m ρ c)]
  refine sep_mono ?_ .rfl
  rw [arrBufs_chain, arrays_chain]
  iintro ⟨Ha0, Ha1, Hv0, Ha3, Hv1, Ha5, Hv2⟩
  ihave Hq := quarters_split _ $$ Ha0
  icases Hq with ⟨H0, H1, H2, H3⟩
  isplitl [H0]; · iexact H0
  isplitl [H1]; · iexact H1
  isplitl [H2]; · iexact H2
  isplitl [H3]; · iexact H3
  isplitl [Ha1]; · iexact Ha1
  isplitl [Hv0]; · iexact Hv0
  isplitl [Ha3]; · iexact Ha3
  isplitl [Hv1]; · iexact Hv1
  isplitl [Ha5]; · iexact Ha5
  iexact Hv2

/-- An input window's array is never written: at the end it holds what it held at entry. -/
theorem arrAt_in_eq (c : Dev nD) (w : Fin cfg0.W) (hw : (cfg0.win w).isOut = false) :
    (dat0 (V1 m ρ) c).arrAt w cfg0.N = V1 m ρ c (Pipeline.arrRef spec0 w) :=
  ((dat0 (V1 m ρ) c).arrAt_in w hw _).trans (A_eq0 (V1 m ρ) c w)

/-- EXIT: the arrays at their final contents and the unscoped rest are the core's unscoped buffers at the exit
    contents — the quarters of the input array put back. -/
theorem exit_join (c : Dev nD) :
    iprop((dat0 (V1 m ρ) c).arrays ((dat0 (V1 m ρ) c).arrAt · cfg0.N)
        ∗ Pipeline.unscopedRest (Ix := Unit) (Name := ℕ) (U := UR sig nD τ) (Lvl := ℕ) spec0 c (V1 m ρ c))
      ⊢ (unscopedBufs (Ix := Unit) (Name := ℕ) (U := UR sig nD τ) (Lvl := ℕ) c (V2 m ρ c) : sProp 𝕄) := by
  rw [Pipeline.unscopedBufs_split₀ cfgs 0 winFacts₀0.arr_unscoped c (V2 m ρ c)]
  refine sep_mono ?_ (Entails.of_eq ?_)
  · rw [arrBufs_chain, arrays_chain]
    rw [show V2 m ρ c main_arg0 = V1 m ρ c main_arg0 from W2_of_ne m ρ c main_arg0 (by decide),
      show V2 m ρ c main_arg1 = V1 m ρ c main_arg1 from W2_of_ne m ρ c main_arg1 (by decide),
      show V2 m ρ c main_v0 = V1 m ρ c main_v0 from W2_of_ne m ρ c main_v0 (by decide),
      show V2 m ρ c main_arg3 = V1 m ρ c main_arg3 from W2_of_ne m ρ c main_arg3 (by decide),
      show V2 m ρ c main_v1 = V1 m ρ c main_v1 from W2_of_ne m ρ c main_v1 (by decide),
      show V2 m ρ c main_arg5 = V1 m ρ c main_arg5 from W2_of_ne m ρ c main_arg5 (by decide),
      show V2 m ρ c main_v2 = (dat0 (V1 m ρ) c).arrAt 9 cfg0.N from W2_out m ρ c]
    rw [arrAt_in_eq m ρ c 0 rfl, arrAt_in_eq m ρ c 1 rfl, arrAt_in_eq m ρ c 2 rfl, arrAt_in_eq m ρ c 3 rfl, arrAt_in_eq m ρ c 4 rfl,
      arrAt_in_eq m ρ c 5 rfl, arrAt_in_eq m ρ c 6 rfl, arrAt_in_eq m ρ c 7 rfl, arrAt_in_eq m ρ c 8 rfl]
    iintro ⟨H0, H1, H2, H3, Ha1, Hv0, Ha3, Hv1, Ha5, Hv2⟩
    isplitl [H0 H1 H2 H3]
    · iapply (quarters_join _)
      isplitl [H0]; · iexact H0
      isplitl [H1]; · iexact H1
      isplitl [H2]; · iexact H2
      iexact H3
    isplitl [Ha1]; · iexact Ha1
    isplitl [Hv0]; · iexact Hv0
    isplitl [Ha3]; · iexact Ha3
    isplitl [Hv1]; · iexact Hv1
    isplitl [Ha5]; · iexact Ha5
    iexact Hv2
  · unfold Pipeline.unscopedRest
    refine bigSep_congr fun b hb => ?_
    have hne : b ≠ main_v2 := fun e => (Finset.mem_sdiff.mp hb).2 (Finset.mem_image.mpr ⟨9, Finset.mem_univ _, e.symm ▸ rfl⟩)
    rw [show V2 m ρ c b = V1 m ρ c b from W2_of_ne m ρ c b hne]

/-! ## The proof data family and the thread state -/

/-- The prefetched tables' admissible contents: the pipeline has no table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the last stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at
    some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every unscoped buffer at `W1`, left at `W2`. Its arrays split
    out of the unscoped buffers (the input array's share in quarters) and put back at the exit contents; the
    generator register into the invariant and out; nothing owed; no semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments in order: the biases' reshapes, the region, the sum over the eight head rows with the
    bias added. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state each unscoped buffer of each core holds the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Body

end
-- ==== Proof.MlpSpec.lean ====
/-
  The mathematics both programs compute, row by row, on the extended reals.

  One input row `x` (128 entries) goes through two dense layers with a rectifier, `h1 j = max (∑ d, x d · w1 j d + b1 j) 0`
  and `h2 k = max (∑ j, h1 j · w2 k j + b2 k) 0` (64 units each), and a one-unit head `∑ k, h2 k · w3 k + b3`.
  The kernel computes the head eight times over with the weights scaled by a constant `e` (one eighth), and adds the
  eight copies up: `outKernel`. The reference computes it once: `outRef`. The two agree when `e` is one eighth and
  every number involved is a real (multiplication distributes over the sum of eight equal real terms).
-/
import Idealize.ShloMosaic.Lib.ValueIdx

open scoped BigOperators

namespace Cert.Mlp

/-- The first hidden layer of one row: unit `j`. -/
noncomputable def hid1 (x : Fin 128 → EReal) (w1 : Fin 64 → Fin 128 → EReal) (b1 : Fin 64 → EReal) (j : Fin 64) : EReal :=
  max ((∑ d : Fin 128, x d * w1 j d) + b1 j) 0

/-- The second hidden layer over a first layer's activations: unit `k`. -/
noncomputable def hid2 (h1 : Fin 64 → EReal) (w2 : Fin 64 → Fin 64 → EReal) (b2 : Fin 64 → EReal) (k : Fin 64) : EReal :=
  max ((∑ j : Fin 64, h1 j * w2 k j) + b2 k) 0

/-- Both hidden layers of one row. -/
noncomputable def feat (x : Fin 128 → EReal) (w1 : Fin 64 → Fin 128 → EReal) (b1 : Fin 64 → EReal)
    (w2 : Fin 64 → Fin 64 → EReal) (b2 : Fin 64 → EReal) (k : Fin 64) : EReal :=
  hid2 (hid1 x w1 b1) w2 b2 k

/-- One of the kernel's eight head rows: the head weights scaled by `e`, weights on the left. -/
noncomputable def headScaled (h2 : Fin 64 → EReal) (w3 : Fin 64 → EReal) (e : EReal) : EReal :=
  ∑ k : Fin 64, (w3 k * e) * h2 k

/-- The kernel's result for one row: the eight head rows summed from zero, plus the bias. -/
noncomputable def outKernel (h2 : Fin 64 → EReal) (w3 : Fin 64 → EReal) (e : EReal) (b3 : EReal) : EReal :=
  (0 + ∑ _i : Fin 8, headScaled h2 w3 e) + b3

/-- The reference's result for one row: activations on the left, plus the bias. -/
noncomputable def outRef (h2 : Fin 64 → EReal) (w3 : Fin 64 → EReal) (b3 : EReal) : EReal :=
  (∑ k : Fin 64, h2 k * w3 k) + b3

end Cert.Mlp
-- ==== Proof.KIOut.lean ====
/-
  What the kernel's [8, 16384] result array holds, named: every one of its eight rows is, at column `r`, the scaled head
  of input row `r` — the two rectified dense layers of that row under the weights, then the head weights times one
  eighth against them (`Cert.Mlp.headScaled` of `Cert.Mlp.feat`), all read off the launch memory's argument arrays.
-/
import proofs.«181375_g33157147525407_cont_8to1_b_505_23_alg».proof.Proof.KIRegion
import proofs.«181375_g33157147525407_cont_8to1_b_505_23_alg».proof.Proof.MlpSpec

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ)

/-- The scaled head of input row `r`, from the launch memory of core `c`. -/
def rowHead (c : Dev nD) (r : Fin 16384) : EReal :=
  Cert.Mlp.headScaled
    (Cert.Mlp.feat (fun d => m ((c : Thread nD τ).loc main_arg0) (ix2 r d)) (fun j d => m ((c : Thread nD τ).loc main_arg1) (ix2 j d))
      (fun j => m ((c : Thread nD τ).loc main_arg2) (ix1 j)) (fun k j => m ((c : Thread nD τ).loc main_arg3) (ix2 k j))
      (fun k => m ((c : Thread nD τ).loc main_arg4) (ix1 k)))
    (fun k => m ((c : Thread nD τ).loc main_arg5) (ix2 (0 : Fin 1) k)) (Ideal.ofBits .f32 0x3E000000#32)

/-- The result array of the pallas_call as one function of its index: row `i`, column `r` holds `rowHead r`. -/
def G9 (c : Dev nD) : Buf (Elt Ideal) ((c : Thread nD τ).loc main_v2) :=
  fun j => rowHead m c ⟨(j 1).val, (j 1).isLt⟩

/-! The buffers the result's statement speaks of, each at its literal type (an element is an extended real). -/

/-- The program's result on core `c`: the last contents of `main_v7`. -/
abbrev res7 (ρ : Dev nD → PrngReg) (c : Dev nD) : S16384x1.Idx → EReal := W3 m ρ c (Proc.devRef .tc main_v7)
/-- The pallas_call's result array as the host operations after the region find it. -/
abbrev res2 (ρ : Dev nD → PrngReg) (c : Dev nD) : S8x16384.Idx → EReal := W2 m ρ c (Proc.devRef .tc main_v2)
/-- The last bias, as launched. -/
abbrev bias3 (c : Dev nD) : S1.Idx → EReal := m ((c : Thread nD τ).loc main_arg6)

end Cert.KernelIdeal.KValue

end
-- ==== Proof.KPay.lean ====
/-
  The kernel's tile at an index.

  For one block of 1024 input rows the kernel body forms an [8, 1024] tile: three contractions over the second axis of
  both operands (rows of the activations against rows of the weights), each into a zero accumulator, with a bias row
  added and a rectifier after the first two, and the head weights scaled by a constant before the third. Read at
  (i, r) on the extended reals the tile is the scaled head of the two hidden layers of row r, whatever i.
  The body stores the tile four times, once per block of rows; the four stored terms are the same function of their
  block, by unfolding.
-/
import proofs.«181375_g33157147525407_cont_8to1_b_505_23_alg».proof.Proof.Gen.KernelIdeal.Skeleton
import proofs.«181375_g33157147525407_cont_8to1_b_505_23_alg».proof.Proof.MlpSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KPay

open Idealize.ShloMosaic Idealize.ShloMosaic.ValueIdx Cert.KernelIdeal Cert.KernelIdeal.Gen

/-! ## The four stored tiles are one function of their block -/

section AnyInstance
variable {F : FTy → Type} [FloatOps F]

set_option maxRecDepth 65536 in
/-- The second block's tile, from the values the first part hands on. -/
theorem pay9_eq (v0 : Vec F S64x128 .f32) (v2 : Vec F S64x64 .f32) (v4 v7 v10 : Vec F S1x64 .f32) (x : Vec F S1024x128 .f32) :
    k0_pay9 (k0_pay3 v2) (k0_pay4 v4) (k0_pay5 v7) (k0_pay6 v10) (k0_pay8 v0 x) = k0_pay7 v0 v2 v4 v7 v10 x := rfl

set_option maxRecDepth 65536 in
/-- The third block's tile. -/
theorem pay10_eq (v0 : Vec F S64x128 .f32) (v2 : Vec F S64x64 .f32) (v4 v7 v10 : Vec F S1x64 .f32) (x : Vec F S1024x128 .f32) :
    k0_pay10 (k0_pay2 v0) (k0_pay3 v2) (k0_pay4 v4) (k0_pay5 v7) (k0_pay6 v10) x = k0_pay7 v0 v2 v4 v7 v10 x := rfl

set_option maxRecDepth 65536 in
/-- The fourth block's tile, from the second hidden layer's sums the second part hands on. -/
theorem pay1_eq (v0 : Vec F S64x128 .f32) (v2 : Vec F S64x64 .f32) (v4 v7 v10 : Vec F S1x64 .f32) (x : Vec F S1024x128 .f32) :
    k0_pay1 (k0_pay5 v7) (k0_pay6 v10) (k0_pay11 (k0_pay2 v0) (k0_pay3 v2) (k0_pay4 v4) x) = k0_pay7 v0 v2 v4 v7 v10 x := rfl

end AnyInstance

/-! ## A product contracting the second axis of both operands, read at an index

Each of the body's three products takes activations [M, K] on the left and weights [N, K] on the right and contracts
the second axis of both, into a zero accumulator: at (p, q) it is the sum over k of left (p, k) times right (q, k).
For each product: where the two operand indices sit on each axis, then the sum. -/

section AtIdeal

/-! ### Input rows against the first layer's weights: [1024, 128] × [64, 128] → [1024, 64] -/

theorem lhs_in_0 (i : S1024x64.Idx) (q : dot_S1024x128_S64x128_S1024x64_1_1_0_0_n_n.contr.Idx) :
    (dot_S1024x128_S64x128_S1024x64_1_1_0_0_n_n.lhsIdx i q 0).val = (i 0).val := by
  unfold DotDims.lhsIdx
  rw [dif_neg (show ¬(0 : Fin S1024x128.rank) ∈ dot_S1024x128_S64x128_S1024x64_1_1_0_0_n_n.lhsBatch by decide), dif_pos (show (0 : Fin S1024x128.rank) ∈ dot_S1024x128_S64x128_S1024x64_1_1_0_0_n_n.lhsNonContracting by decide)]
  rfl
theorem lhs_in_1 (i : S1024x64.Idx) (q : dot_S1024x128_S64x128_S1024x64_1_1_0_0_n_n.contr.Idx) :
    (dot_S1024x128_S64x128_S1024x64_1_1_0_0_n_n.lhsIdx i q 1).val = (q ⟨0, by decide⟩).val :=
  dot_S1024x128_S64x128_S1024x64_1_1_0_0_n_n.lhsIdx_val_of_single rfl i q
theorem rhs_in_0 (i : S1024x64.Idx) (q : dot_S1024x128_S64x128_S1024x64_1_1_0_0_n_n.contr.Idx) :
    (dot_S1024x128_S64x128_S1024x64_1_1_0_0_n_n.rhsIdx i q 0).val = (i 1).val := by
  unfold DotDims.rhsIdx
  rw [dif_neg (show ¬(0 : Fin S64x128.rank) ∈ dot_S1024x128_S64x128_S1024x64_1_1_0_0_n_n.rhsBatch by decide), dif_pos (show (0 : Fin S64x128.rank) ∈ dot_S1024x128_S64x128_S1024x64_1_1_0_0_n_n.rhsNonContracting by decide)]
  rfl
theorem rhs_in_1 (i : S1024x64.Idx) (q : dot_S1024x128_S64x128_S1024x64_1_1_0_0_n_n.contr.Idx) :
    (dot_S1024x128_S64x128_S1024x64_1_1_0_0_n_n.rhsIdx i q 1).val = (q ⟨0, by decide⟩).val :=
  dot_S1024x128_S64x128_S1024x64_1_1_0_0_n_n.rhsIdx_val_of_single rfl i q

/-- The first product at (p, q): row p of the input against row q of the weights. -/
theorem dot_in_apply (a : FVec Ideal S1024x128 .bf16) (w : FVec Ideal S64x128 .bf16) (p : Fin 1024) (q : Fin 64) :
    matmul dot_S1024x128_S64x128_S1024x64_1_1_0_0_n_n none a w (constant (F := Ideal) S1024x64 .f32 0x00000000#32) (ix2 p q)
      = ∑ k : Fin 128, a (ix2 p k) * w (ix2 q k) := by
  simp only [matmul]
  rw [Ideal.matmul_constant_zero_apply, ← Equiv.sum_comp (contrEquiv1 dot_S1024x128_S64x128_S1024x64_1_1_0_0_n_n 128 rfl rfl).symm]
  refine Finset.sum_congr rfl fun k _ => ?_
  have hk := contrEquiv1_symm_val dot_S1024x128_S64x128_S1024x64_1_1_0_0_n_n 128 rfl rfl k
  have el : dot_S1024x128_S64x128_S1024x64_1_1_0_0_n_n.lhsIdx (ix2 p q) ((contrEquiv1 dot_S1024x128_S64x128_S1024x64_1_1_0_0_n_n 128 rfl rfl).symm k) = ix2 p k := funext fun c => Fin.ext (by
    match c with
    | ⟨0, _⟩ => exact lhs_in_0 _ _
    | ⟨1, _⟩ => exact (lhs_in_1 _ _).trans hk)
  have er : dot_S1024x128_S64x128_S1024x64_1_1_0_0_n_n.rhsIdx (ix2 p q) ((contrEquiv1 dot_S1024x128_S64x128_S1024x64_1_1_0_0_n_n 128 rfl rfl).symm k) = ix2 q k := funext fun c => Fin.ext (by
    match c with
    | ⟨0, _⟩ => exact rhs_in_0 _ _
    | ⟨1, _⟩ => exact (rhs_in_1 _ _).trans hk)
  rw [el, er]

/-! ### First-layer activations against the second layer's weights: [1024, 64] × [64, 64] → [1024, 64] -/

theorem lhs_mid_0 (i : S1024x64.Idx) (q : dot_S1024x64_S64x64_S1024x64_1_1_0_0_n_n.contr.Idx) :
    (dot_S1024x64_S64x64_S1024x64_1_1_0_0_n_n.lhsIdx i q 0).val = (i 0).val := by
  unfold DotDims.lhsIdx
  rw [dif_neg (show ¬(0 : Fin S1024x64.rank) ∈ dot_S1024x64_S64x64_S1024x64_1_1_0_0_n_n.lhsBatch by decide), dif_pos (show (0 : Fin S1024x64.rank) ∈ dot_S1024x64_S64x64_S1024x64_1_1_0_0_n_n.lhsNonContracting by decide)]
  rfl
theorem lhs_mid_1 (i : S1024x64.Idx) (q : dot_S1024x64_S64x64_S1024x64_1_1_0_0_n_n.contr.Idx) :
    (dot_S1024x64_S64x64_S1024x64_1_1_0_0_n_n.lhsIdx i q 1).val = (q ⟨0, by decide⟩).val :=
  dot_S1024x64_S64x64_S1024x64_1_1_0_0_n_n.lhsIdx_val_of_single rfl i q
theorem rhs_mid_0 (i : S1024x64.Idx) (q : dot_S1024x64_S64x64_S1024x64_1_1_0_0_n_n.contr.Idx) :
    (dot_S1024x64_S64x64_S1024x64_1_1_0_0_n_n.rhsIdx i q 0).val = (i 1).val := by
  unfold DotDims.rhsIdx
  rw [dif_neg (show ¬(0 : Fin S64x64.rank) ∈ dot_S1024x64_S64x64_S1024x64_1_1_0_0_n_n.rhsBatch by decide), dif_pos (show (0 : Fin S64x64.rank) ∈ dot_S1024x64_S64x64_S1024x64_1_1_0_0_n_n.rhsNonContracting by decide)]
  rfl
theorem rhs_mid_1 (i : S1024x64.Idx) (q : dot_S1024x64_S64x64_S1024x64_1_1_0_0_n_n.contr.Idx) :
    (dot_S1024x64_S64x64_S1024x64_1_1_0_0_n_n.rhsIdx i q 1).val = (q ⟨0, by decide⟩).val :=
  dot_S1024x64_S64x64_S1024x64_1_1_0_0_n_n.rhsIdx_val_of_single rfl i q

/-- The second product at (p, q): row p of the activations against row q of the weights. -/
theorem dot_mid_apply (a : FVec Ideal S1024x64 .bf16) (w : FVec Ideal S64x64 .bf16) (p : Fin 1024) (q : Fin 64) :
    matmul dot_S1024x64_S64x64_S1024x64_1_1_0_0_n_n none a w (constant (F := Ideal) S1024x64 .f32 0x00000000#32) (ix2 p q)
      = ∑ k : Fin 64, a (ix2 p k) * w (ix2 q k) := by
  simp only [matmul]
  rw [Ideal.matmul_constant_zero_apply, ← Equiv.sum_comp (contrEquiv1 dot_S1024x64_S64x64_S1024x64_1_1_0_0_n_n 64 rfl rfl).symm]
  refine Finset.sum_congr rfl fun k _ => ?_
  have hk := contrEquiv1_symm_val dot_S1024x64_S64x64_S1024x64_1_1_0_0_n_n 64 rfl rfl k
  have el : dot_S1024x64_S64x64_S1024x64_1_1_0_0_n_n.lhsIdx (ix2 p q) ((contrEquiv1 dot_S1024x64_S64x64_S1024x64_1_1_0_0_n_n 64 rfl rfl).symm k) = ix2 p k := funext fun c => Fin.ext (by
    match c with
    | ⟨0, _⟩ => exact lhs_mid_0 _ _
    | ⟨1, _⟩ => exact (lhs_mid_1 _ _).trans hk)
  have er : dot_S1024x64_S64x64_S1024x64_1_1_0_0_n_n.rhsIdx (ix2 p q) ((contrEquiv1 dot_S1024x64_S64x64_S1024x64_1_1_0_0_n_n 64 rfl rfl).symm k) = ix2 q k := funext fun c => Fin.ext (by
    match c with
    | ⟨0, _⟩ => exact rhs_mid_0 _ _
    | ⟨1, _⟩ => exact (rhs_mid_1 _ _).trans hk)
  rw [el, er]

/-! ### The eight scaled head rows against the second-layer activations: [8, 64] × [1024, 64] → [8, 1024] -/

theorem lhs_head_0 (i : S8x1024.Idx) (q : dot_S8x64_S1024x64_S8x1024_1_1_0_0_n_n.contr.Idx) :
    (dot_S8x64_S1024x64_S8x1024_1_1_0_0_n_n.lhsIdx i q 0).val = (i 0).val := by
  unfold DotDims.lhsIdx
  rw [dif_neg (show ¬(0 : Fin S8x64.rank) ∈ dot_S8x64_S1024x64_S8x1024_1_1_0_0_n_n.lhsBatch by decide), dif_pos (show (0 : Fin S8x64.rank) ∈ dot_S8x64_S1024x64_S8x1024_1_1_0_0_n_n.lhsNonContracting by decide)]
  rfl
theorem lhs_head_1 (i : S8x1024.Idx) (q : dot_S8x64_S1024x64_S8x1024_1_1_0_0_n_n.contr.Idx) :
    (dot_S8x64_S1024x64_S8x1024_1_1_0_0_n_n.lhsIdx i q 1).val = (q ⟨0, by decide⟩).val :=
  dot_S8x64_S1024x64_S8x1024_1_1_0_0_n_n.lhsIdx_val_of_single rfl i q
theorem rhs_head_0 (i : S8x1024.Idx) (q : dot_S8x64_S1024x64_S8x1024_1_1_0_0_n_n.contr.Idx) :
    (dot_S8x64_S1024x64_S8x1024_1_1_0_0_n_n.rhsIdx i q 0).val = (i 1).val := by
  unfold DotDims.rhsIdx
  rw [dif_neg (show ¬(0 : Fin S1024x64.rank) ∈ dot_S8x64_S1024x64_S8x1024_1_1_0_0_n_n.rhsBatch by decide), dif_pos (show (0 : Fin S1024x64.rank) ∈ dot_S8x64_S1024x64_S8x1024_1_1_0_0_n_n.rhsNonContracting by decide)]
  rfl
theorem rhs_head_1 (i : S8x1024.Idx) (q : dot_S8x64_S1024x64_S8x1024_1_1_0_0_n_n.contr.Idx) :
    (dot_S8x64_S1024x64_S8x1024_1_1_0_0_n_n.rhsIdx i q 1).val = (q ⟨0, by decide⟩).val :=
  dot_S8x64_S1024x64_S8x1024_1_1_0_0_n_n.rhsIdx_val_of_single rfl i q

/-- The third product at (p, q): head row p against row q of the activations. -/
theorem dot_head_apply (a : FVec Ideal S8x64 .bf16) (w : FVec Ideal S1024x64 .bf16) (p : Fin 8) (q : Fin 1024) :
    matmul dot_S8x64_S1024x64_S8x1024_1_1_0_0_n_n none a w (constant (F := Ideal) S8x1024 .f32 0x00000000#32) (ix2 p q)
      = ∑ k : Fin 64, a (ix2 p k) * w (ix2 q k) := by
  simp only [matmul]
  rw [Ideal.matmul_constant_zero_apply, ← Equiv.sum_comp (contrEquiv1 dot_S8x64_S1024x64_S8x1024_1_1_0_0_n_n 64 rfl rfl).symm]
  refine Finset.sum_congr rfl fun k _ => ?_
  have hk := contrEquiv1_symm_val dot_S8x64_S1024x64_S8x1024_1_1_0_0_n_n 64 rfl rfl k
  have el : dot_S8x64_S1024x64_S8x1024_1_1_0_0_n_n.lhsIdx (ix2 p q) ((contrEquiv1 dot_S8x64_S1024x64_S8x1024_1_1_0_0_n_n 64 rfl rfl).symm k) = ix2 p k := funext fun c => Fin.ext (by
    match c with
    | ⟨0, _⟩ => exact lhs_head_0 _ _
    | ⟨1, _⟩ => exact (lhs_head_1 _ _).trans hk)
  have er : dot_S8x64_S1024x64_S8x1024_1_1_0_0_n_n.rhsIdx (ix2 p q) ((contrEquiv1 dot_S8x64_S1024x64_S8x1024_1_1_0_0_n_n 64 rfl rfl).symm k) = ix2 q k := funext fun c => Fin.ext (by
    match c with
    | ⟨0, _⟩ => exact rhs_head_0 _ _
    | ⟨1, _⟩ => exact (rhs_head_1 _ _).trans hk)
  rw [el, er]

/-! ## The tile at an index -/

/-- The bf16 zero word is the extended real zero. -/
theorem ofBits_zero_bf16 : Ideal.ofBits .bf16 0x0000#16 = 0 := by simp [Ideal.ofBits, Ideal.ieee]

/-- One hidden layer after its product: the bias row added, then the rectifier, at (p, q). -/
theorem layer_apply (s : FVec Ideal S1024x64 .f32) (b : FVec Ideal S1x64 .bf16) (ht : FTy.bits .bf16 < FTy.bits .f32)
    (hb : S1x64.Broadcasts S1024x64) (p : Fin 1024) (q : Fin 64) :
    maximumf (addf (truncf .bf16 s ht) (broadcastTo S1024x64 b hb)) (broadcast S1024x64 (Scalar.ofBits (F := Ideal) .bf16 0x0000#16)) (ix2 p q)
      = max (s (ix2 p q) + b (ix2 (0 : Fin 1) q)) 0 := by
  show max (s (ix2 p q) + broadcastTo S1024x64 b hb (ix2 p q)) (Ideal.ofBits .bf16 0x0000#16) = _
  rw [broadcastTo_1b_ab_apply, ofBits_zero_bf16]

/-- A bias row after its cast to its own shape and its change of format: the row itself. -/
theorem row_apply (v : Vec Ideal S1x64 .f32) (hs : S1x64.ShapeCasts S1x64) (ht : FTy.bits .bf16 < FTy.bits .f32) (q : Fin 64) :
    (truncf .bf16 (shapeCast S1x64 v hs : FVec Ideal S1x64 .f32) ht : FVec Ideal S1x64 .bf16) (ix2 (0 : Fin 1) q) = v (ix2 (0 : Fin 1) q) :=
  congrFun (shapeCast_self v hs) (ix2 (0 : Fin 1) q)

/-- The head's weights scaled by the constant and copied to eight rows: at (p, q) the weight q times the constant. -/
theorem head_row_apply (v : Vec Ideal S1x64 .f32) (e : Ideal .f32) (hs : S1x64.ShapeCasts S1x64) (hb : S1x64.Broadcasts S8x64)
    (ht : FTy.bits .bf16 < FTy.bits .f32) (p : Fin 8) (q : Fin 64) :
    (truncf .bf16 (broadcastTo S8x64 (shapeCast S1x64 (mulf (v : FVec Ideal S1x64 .f32) (broadcast S1x64 e)) hs) hb : FVec Ideal S8x64 .f32) ht : FVec Ideal S8x64 .bf16) (ix2 p q)
      = v (ix2 (0 : Fin 1) q) * e := by
  show broadcastTo S8x64 (shapeCast S1x64 (mulf (v : FVec Ideal S1x64 .f32) (broadcast S1x64 e)) hs) hb (ix2 p q) = _
  rw [broadcastTo_1b_ab_apply, shapeCast_self]
  rfl

/-- The tile the body stores for a block `x` of 1024 input rows, at (i, r): the scaled head of the two hidden layers of
    row r. The three products contract the second axis of both operands; the changes of format are the identity. -/
theorem pay7_apply (v0 : Vec Ideal S64x128 .f32) (v2 : Vec Ideal S64x64 .f32) (v4 v7 v10 : Vec Ideal S1x64 .f32)
    (x : Vec Ideal S1024x128 .f32) (i : Fin 8) (r : Fin 1024) :
    k0_pay7 (F := Ideal) v0 v2 v4 v7 v10 x (ix2 i r)
      = Cert.Mlp.headScaled
          (Cert.Mlp.feat (fun d => x (ix2 r d)) (fun j d => v0 (ix2 j d)) (fun j => v4 (ix2 (0 : Fin 1) j))
            (fun k j => v2 (ix2 k j)) (fun k => v7 (ix2 (0 : Fin 1) k)))
          (fun k => v10 (ix2 (0 : Fin 1) k)) (Ideal.ofBits .f32 0x3E000000#32) := by
  unfold k0_pay7 k0_pay2 k0_pay3 k0_pay4 k0_pay5 k0_pay6
  refine (dot_head_apply _ _ i r).trans ?_
  unfold Cert.Mlp.headScaled
  refine Finset.sum_congr rfl fun k _ => ?_
  refine congrArg₂ (fun a b : EReal => a * b) (head_row_apply v10 _ _ _ _ i k) ?_
  unfold Cert.Mlp.feat Cert.Mlp.hid2
  refine (layer_apply _ _ _ _ r k).trans ?_
  refine congrArg₂ (fun a b : EReal => max a b) (congrArg₂ (fun a b : EReal => a + b) ?_ (row_apply v7 _ _ k)) rfl
  refine (dot_mid_apply _ _ r k).trans (Finset.sum_congr rfl fun j _ => ?_)
  refine congrArg₂ (fun a b : EReal => a * b) ?_ rfl
  unfold Cert.Mlp.hid1
  refine (layer_apply _ _ _ _ r j).trans ?_
  refine congrArg₂ (fun a b : EReal => max a b) (congrArg₂ (fun a b : EReal => a + b) ?_ (row_apply v4 _ _ j)) rfl
  exact dot_in_apply _ _ r j

end AtIdeal

end Cert.KernelIdeal.KPay

end
-- ==== Proof.KIBlocks.lean ====
/-
  The kernel's input blocks as rows of the launch memory's arrays.

  The region is entered after the two bias vectors [64] were reshaped to rows [1, 64]; no other array the kernel reads
  was written, so each holds what the launch memory held, and a bias row at (0, j) holds the bias vector at j.
  The grid has four points. At point t the four input windows are row blocks 4t, 4t + 1, 4t + 2, 4t + 3 of the
  [16384, 128] input (1024 rows each), so row r of window s is input row 4096 t + 1024 s + r; the weights and the
  bias rows are whole arrays at every point; the output window is column block t of the [8, 16384] result.
-/
import proofs.«181375_g33157147525407_cont_8to1_b_505_23_alg».proof.Proof.KIOut
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ) (ρ : Dev nD → PrngReg)

/-! ## The arrays as the region finds them -/

theorem V1_main_arg0 (c : Dev nD) : V1 m ρ c main_arg0 = m ((c : Thread nD τ).loc main_arg0) :=
  (StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))).trans rfl

theorem V1_main_arg1 (c : Dev nD) : V1 m ρ c main_arg1 = m ((c : Thread nD τ).loc main_arg1) :=
  (StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))).trans rfl

theorem V1_main_arg3 (c : Dev nD) : V1 m ρ c main_arg3 = m ((c : Thread nD τ).loc main_arg3) :=
  (StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))).trans rfl

theorem V1_main_arg5 (c : Dev nD) : V1 m ρ c main_arg5 = m ((c : Thread nD τ).loc main_arg5) :=
  (StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))).trans rfl

theorem V1_main_v0 (c : Dev nD) (j : Fin 64) :
    V1 m ρ c main_v0 (ix2 (0 : Fin 1) j) = m ((c : Thread nD τ).loc main_arg2) (ix1 j) := by
  have e : (V1 m ρ c main_v0 : S1x64.Idx → EReal)
      = shapeCast S1x64 (m ((c : Thread nD τ).loc main_arg2) : S64.Idx → EReal) shapeCasts_S64_S1x64 := by
    show StableHlo.after hostOps0 _ (Proc.devRef .tc main_v0) = _
    after_results
    rfl
  rw [e]
  exact shapeCast_a_1a_apply _ _ 0 j

theorem V1_main_v1 (c : Dev nD) (j : Fin 64) :
    V1 m ρ c main_v1 (ix2 (0 : Fin 1) j) = m ((c : Thread nD τ).loc main_arg4) (ix1 j) := by
  have e : (V1 m ρ c main_v1 : S1x64.Idx → EReal)
      = shapeCast S1x64 (m ((c : Thread nD τ).loc main_arg4) : S64.Idx → EReal) shapeCasts_S64_S1x64 := by
    show StableHlo.after hostOps0 _ (Proc.devRef .tc main_v1) = _
    after_results
    rfl
  rw [e]
  exact shapeCast_a_1a_apply _ _ 0 j

/-! ## Where each window's block sits at a grid point -/

/-- The block indices at point `t`: input window `s` (of four) is row block `4t + s` of the input; the weights and
    biases are whole arrays; the output's block is column block `t`. -/
theorem idx_facts : ∀ t : Fin cfg0.N,
    (win0_0.index t (0 : Fin 2) = 4 * t.val ∧ win0_0.index t (1 : Fin 2) = 0)
    ∧ (win0_1.index t (0 : Fin 2) = 4 * t.val + 1 ∧ win0_1.index t (1 : Fin 2) = 0)
    ∧ (win0_2.index t (0 : Fin 2) = 4 * t.val + 2 ∧ win0_2.index t (1 : Fin 2) = 0)
    ∧ (win0_3.index t (0 : Fin 2) = 4 * t.val + 3 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = t.val) :=
  (by decide +kernel : ∀ t : Fin grid0.N, _)

/-- Input window 0's block at point `t`: its row `r` is input row `4096 t + r`. -/
theorem xblk0_apply (c : Dev nD) (t : Fin cfg0.N) (r : Fin 1024) (d : Fin 128) (R : Fin 16384) (hR : R.val = 4096 * t.val + r.val) :
    (iblk0 (V1 m ρ) c 0 t : Vec Ideal S1024x128 .f32) (ix2 r d) = m ((c : Thread nD τ).loc main_arg0) (ix2 R d) := by
  unfold iblk0
  rw [View.read_apply]
  show V1 m ρ c main_arg0 _ = _
  rw [V1_main_arg0]
  congr 1
  funext a
  apply Fin.ext
  match a with
  | ⟨0, _⟩ => show win0_0.index t (0 : Fin 2) * 1024 + 1 * r.val = R.val; rw [(idx_facts t).1.1, hR]; omega
  | ⟨1, _⟩ => show win0_0.index t (1 : Fin 2) * 128 + 1 * d.val = d.val; rw [(idx_facts t).1.2]; omega

/-- Input window 1's block at point `t`: its row `r` is input row `4096 t + 1024 + r`. -/
theorem xblk1_apply (c : Dev nD) (t : Fin cfg0.N) (r : Fin 1024) (d : Fin 128) (R : Fin 16384) (hR : R.val = 4096 * t.val + 1024 + r.val) :
    (iblk0 (V1 m ρ) c 1 t : Vec Ideal S1024x128 .f32) (ix2 r d) = m ((c : Thread nD τ).loc main_arg0) (ix2 R d) := by
  unfold iblk0
  rw [View.read_apply]
  show V1 m ρ c main_arg0 _ = _
  rw [V1_main_arg0]
  congr 1
  funext a
  apply Fin.ext
  match a with
  | ⟨0, _⟩ => show win0_1.index t (0 : Fin 2) * 1024 + 1 * r.val = R.val; rw [(idx_facts t).2.1.1, hR]; omega
  | ⟨1, _⟩ => show win0_1.index t (1 : Fin 2) * 128 + 1 * d.val = d.val; rw [(idx_facts t).2.1.2]; omega

/-- Input window 2's block at point `t`: its row `r` is input row `4096 t + 2048 + r`. -/
theorem xblk2_apply (c : Dev nD) (t : Fin cfg0.N) (r : Fin 1024) (d : Fin 128) (R : Fin 16384) (hR : R.val = 4096 * t.val + 2048 + r.val) :
    (iblk0 (V1 m ρ) c 2 t : Vec Ideal S1024x128 .f32) (ix2 r d) = m ((c : Thread nD τ).loc main_arg0) (ix2 R d) := by
  unfold iblk0
  rw [View.read_apply]
  show V1 m ρ c main_arg0 _ = _
  rw [V1_main_arg0]
  congr 1
  funext a
  apply Fin.ext
  match a with
  | ⟨0, _⟩ => show win0_2.index t (0 : Fin 2) * 1024 + 1 * r.val = R.val; rw [(idx_facts t).2.2.1.1, hR]; omega
  | ⟨1, _⟩ => show win0_2.index t (1 : Fin 2) * 128 + 1 * d.val = d.val; rw [(idx_facts t).2.2.1.2]; omega

/-- Input window 3's block at point `t`: its row `r` is input row `4096 t + 3072 + r`. -/
theorem xblk3_apply (c : Dev nD) (t : Fin cfg0.N) (r : Fin 1024) (d : Fin 128) (R : Fin 16384) (hR : R.val = 4096 * t.val + 3072 + r.val) :
    (iblk0 (V1 m ρ) c 3 t : Vec Ideal S1024x128 .f32) (ix2 r d) = m ((c : Thread nD τ).loc main_arg0) (ix2 R d) := by
  unfold iblk0
  rw [View.read_apply]
  show V1 m ρ c main_arg0 _ = _
  rw [V1_main_arg0]
  congr 1
  funext a
  apply Fin.ext
  match a with
  | ⟨0, _⟩ => show win0_3.index t (0 : Fin 2) * 1024 + 1 * r.val = R.val; rw [(idx_facts t).2.2.2.1.1, hR]; omega
  | ⟨1, _⟩ => show win0_3.index t (1 : Fin 2) * 128 + 1 * d.val = d.val; rw [(idx_facts t).2.2.2.1.2]; omega

/-- Window 4's block at any point is the first layer's weights, whole. -/
theorem wblk4_apply (c : Dev nD) (t : Fin cfg0.N) (p : Fin 64) (q : Fin 128) :
    (iblk0 (V1 m ρ) c 4 t : Vec Ideal S64x128 .f32) (ix2 p q) = V1 m ρ c main_arg1 (ix2 p q) := by
  unfold iblk0
  rw [View.read_apply]
  show V1 m ρ c main_arg1 _ = _
  congr 1
  funext a
  apply Fin.ext
  match a with
  | ⟨0, _⟩ => show win0_4.index t (0 : Fin 2) * 64 + 1 * p.val = p.val; rw [(idx_facts t).2.2.2.2.1.1]; omega
  | ⟨1, _⟩ => show win0_4.index t (1 : Fin 2) * 128 + 1 * q.val = q.val; rw [(idx_facts t).2.2.2.2.1.2]; omega

/-- Window 5's block at any point is the first layer's bias row, whole. -/
theorem wblk5_apply (c : Dev nD) (t : Fin cfg0.N) (p : Fin 1) (q : Fin 64) :
    (iblk0 (V1 m ρ) c 5 t : Vec Ideal S1x64 .f32) (ix2 p q) = V1 m ρ c main_v0 (ix2 p q) := by
  unfold iblk0
  rw [View.read_apply]
  show V1 m ρ c main_v0 _ = _
  congr 1
  funext a
  apply Fin.ext
  match a with
  | ⟨0, _⟩ => show win0_5.index t (0 : Fin 2) * 1 + 1 * p.val = p.val; rw [(idx_facts t).2.2.2.2.2.1.1]; omega
  | ⟨1, _⟩ => show win0_5.index t (1 : Fin 2) * 64 + 1 * q.val = q.val; rw [(idx_facts t).2.2.2.2.2.1.2]; omega

/-- Window 6's block at any point is the second layer's weights, whole. -/
theorem wblk6_apply (c : Dev nD) (t : Fin cfg0.N) (p : Fin 64) (q : Fin 64) :
    (iblk0 (V1 m ρ) c 6 t : Vec Ideal S64x64 .f32) (ix2 p q) = V1 m ρ c main_arg3 (ix2 p q) := by
  unfold iblk0
  rw [View.read_apply]
  show V1 m ρ c main_arg3 _ = _
  congr 1
  funext a
  apply Fin.ext
  match a with
  | ⟨0, _⟩ => show win0_6.index t (0 : Fin 2) * 64 + 1 * p.val = p.val; rw [(idx_facts t).2.2.2.2.2.2.1.1]; omega
  | ⟨1, _⟩ => show win0_6.index t (1 : Fin 2) * 64 + 1 * q.val = q.val; rw [(idx_facts t).2.2.2.2.2.2.1.2]; omega

/-- Window 7's block at any point is the second layer's bias row, whole. -/
theorem wblk7_apply (c : Dev nD) (t : Fin cfg0.N) (p : Fin 1) (q : Fin 64) :
    (iblk0 (V1 m ρ) c 7 t : Vec Ideal S1x64 .f32) (ix2 p q) = V1 m ρ c main_v1 (ix2 p q) := by
  unfold iblk0
  rw [View.read_apply]
  show V1 m ρ c main_v1 _ = _
  congr 1
  funext a
  apply Fin.ext
  match a with
  | ⟨0, _⟩ => show win0_7.index t (0 : Fin 2) * 1 + 1 * p.val = p.val; rw [(idx_facts t).2.2.2.2.2.2.2.1.1]; omega
  | ⟨1, _⟩ => show win0_7.index t (1 : Fin 2) * 64 + 1 * q.val = q.val; rw [(idx_facts t).2.2.2.2.2.2.2.1.2]; omega

/-- Window 8's block at any point is the head's weights, whole. -/
theorem wblk8_apply (c : Dev nD) (t : Fin cfg0.N) (p : Fin 1) (q : Fin 64) :
    (iblk0 (V1 m ρ) c 8 t : Vec Ideal S1x64 .f32) (ix2 p q) = V1 m ρ c main_arg5 (ix2 p q) := by
  unfold iblk0
  rw [View.read_apply]
  show V1 m ρ c main_arg5 _ = _
  congr 1
  funext a
  apply Fin.ext
  match a with
  | ⟨0, _⟩ => show win0_8.index t (0 : Fin 2) * 1 + 1 * p.val = p.val; rw [(idx_facts t).2.2.2.2.2.2.2.2.1.1]; omega
  | ⟨1, _⟩ => show win0_8.index t (1 : Fin 2) * 64 + 1 * q.val = q.val; rw [(idx_facts t).2.2.2.2.2.2.2.2.1.2]; omega

end Cert.KernelIdeal.KValue

end
-- ==== Proof.KITile.lean ====
/-
  The [8, 4096] buffer the body leaves, read at an index.

  The body stores four [8, 1024] tiles side by side, tile s the scaled head of the rows of input block s. If the four
  blocks are consecutive runs of 1024 rows of one array, starting at row o, then column q of the buffer holds the scaled
  head of row o + q, in each of the eight rows: the tile's column r sits at buffer column 1024 s + r and depends on
  row r of block s, which is row o + 1024 s + r of the array.
-/
import proofs.«181375_g33157147525407_cont_8to1_b_505_23_alg».proof.Proof.KIBody
import proofs.«181375_g33157147525407_cont_8to1_b_505_23_alg».proof.Proof.KPay
import Idealize.ShloMosaic.Lib.Pipeline.Value
import Idealize.ShloMosaic.Lib.ValueIdx

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Body

/-! ## One stored tile, read at an index -/

theorem hz : (![0, 0] : Fin 2 → Nat) = fun _ => 0 := funext fun a => by fin_cases a <;> rfl

/-- The tile of a block `x` of 1024 rows at `(i, r)`, the buffers loaded whole: the scaled head of row `r` of the block
    under the weights, each named by the function it is of its indices. -/
theorem tile_apply (w1 : Vec Ideal S64x128 .f32) (w2 : Vec Ideal S64x64 .f32) (b1 b2 w3 : Vec Ideal S1x64 .f32)
    (x : Vec Ideal S1024x128 .f32) (i : Fin 8) (r : Fin 1024)
    (xr : Fin 128 → EReal) (W1 : Fin 64 → Fin 128 → EReal) (B1 : Fin 64 → EReal) (W2 : Fin 64 → Fin 64 → EReal)
    (B2 W3 : Fin 64 → EReal)
    (hx : ∀ d, x (ix2 r d) = xr d) (hw1 : ∀ j d, w1 (ix2 j d) = W1 j d) (hb1 : ∀ j, b1 (ix2 (0 : Fin 1) j) = B1 j)
    (hw2 : ∀ k j, w2 (ix2 k j) = W2 k j) (hb2 : ∀ k, b2 (ix2 (0 : Fin 1) k) = B2 k) (hw3 : ∀ k, w3 (ix2 (0 : Fin 1) k) = W3 k) :
    k0_pay7 (F := Ideal) (View.ld w1 rW1) (View.ld w2 rW2) (View.ld b1 rB) (View.ld b2 rB) (View.ld w3 rB) (View.ld x rX) (ix2 i r)
      = Cert.Mlp.headScaled (Cert.Mlp.feat xr W1 B1 W2 B2) W3 (Ideal.ofBits .f32 0x3E000000#32) := by
  rw [View.ld_unit_zero (S := S64x128) hz, View.ld_unit_zero (S := S64x64) hz, View.ld_unit_zero (S := S1x64) hz,
    View.ld_unit_zero (S := S1x64) hz, View.ld_unit_zero (S := S1x64) hz, View.ld_unit_zero (S := S1024x128) hz]
  refine (KPay.pay7_apply w1 w2 b1 b2 w3 x i r).trans ?_
  rw [show (fun d => x (ix2 r d)) = xr from funext hx,
    show (fun j d => w1 (ix2 j d)) = W1 from funext fun j => funext fun d => hw1 j d,
    show (fun j => b1 (ix2 (0 : Fin 1) j)) = B1 from funext hb1,
    show (fun k j => w2 (ix2 k j)) = W2 from funext fun k => funext fun j => hw2 k j,
    show (fun k => b2 (ix2 (0 : Fin 1) k)) = B2 from funext hb2,
    show (fun k => w3 (ix2 (0 : Fin 1) k)) = W3 from funext hw3]

/-! ## The output buffer after the body, read at an index -/

/-- The [8, 4096] buffer the body leaves at a point whose four input blocks are rows `o …`, `o + 1024 …`, `o + 2048 …`,
    `o + 3072 …` of one array of rows `row`: at `(i, q)` the scaled head of row `o + q`, whatever `i`. -/
theorem out_block (x1 x2 x3 x4 : Vec Ideal S1024x128 .f32) (w1 : Vec Ideal S64x128 .f32) (b1 : Vec Ideal S1x64 .f32)
    (w2 : Vec Ideal S64x64 .f32) (b2 w3 : Vec Ideal S1x64 .f32)
    (o : Nat) (ho : o + 4096 ≤ 16384)
    (row : Fin 16384 → Fin 128 → EReal) (W1 : Fin 64 → Fin 128 → EReal) (B1 : Fin 64 → EReal) (W2 : Fin 64 → Fin 64 → EReal)
    (B2 W3 : Fin 64 → EReal)
    (h1 : ∀ (r : Fin 1024) (d : Fin 128), x1 (ix2 r d) = row ⟨o + r.val, by omega⟩ d)
    (h2 : ∀ (r : Fin 1024) (d : Fin 128), x2 (ix2 r d) = row ⟨o + 1024 + r.val, by omega⟩ d)
    (h3 : ∀ (r : Fin 1024) (d : Fin 128), x3 (ix2 r d) = row ⟨o + 2048 + r.val, by omega⟩ d)
    (h4 : ∀ (r : Fin 1024) (d : Fin 128), x4 (ix2 r d) = row ⟨o + 3072 + r.val, by omega⟩ d)
    (hw1 : ∀ j d, w1 (ix2 j d) = W1 j d) (hb1 : ∀ j, b1 (ix2 (0 : Fin 1) j) = B1 j)
    (hw2 : ∀ k j, w2 (ix2 k j) = W2 k j) (hb2 : ∀ k, b2 (ix2 (0 : Fin 1) k) = B2 k) (hw3 : ∀ k, w3 (ix2 (0 : Fin 1) k) = W3 k)
    (y : S8x4096.Idx) :
    out0_9 x1 x2 x3 x4 w1 b1 w2 b2 w3 y
      = Cert.Mlp.headScaled (Cert.Mlp.feat (row ⟨o + (y 1).val, by have := idx2_lt1 y; omega⟩) W1 B1 W2 B2) W3
          (Ideal.ofBits .f32 0x3E000000#32) := by
  unfold out0_9
  refine View.canon_apply_of_pieces (Val := Elt Ideal) (S := S8x4096) (e := .f32)
    (fun y : S8x4096.Idx => Cert.Mlp.headScaled (Cert.Mlp.feat (row ⟨o + (y 1).val, by have := idx2_lt1 y; omega⟩) W1 B1 W2 B2) W3
      (Ideal.ofBits .f32 0x3E000000#32)) _ ?_ y (cover0_9 _ _ _ _ y)
  intro p hp
  simp only [List.mem_cons, List.not_mem_nil, or_false] at hp
  rcases hp with rfl | rfl | rfl | rfl
  · intro x
    obtain ⟨i, r, rfl⟩ : ∃ (i : Fin 8) (r : Fin 1024), x = ix2 i r := ⟨x 0, x 1, eq_ix2 x⟩
    refine ((congrFun (KPay.pay1_eq (F := Ideal) (View.ld w1 rW1) (View.ld w2 rW2) (View.ld b1 rB) (View.ld b2 rB) (View.ld w3 rB)
      (View.ld x4 rX)) (ix2 i r)).trans
      (tile_apply w1 w2 b1 b2 w3 x4 i r _ W1 B1 W2 B2 W3 (h4 r) hw1 hb1 hw2 hb2 hw3)).trans ?_
    refine congrArg (fun R => Cert.Mlp.headScaled (Cert.Mlp.feat (row R) W1 B1 W2 B2) W3 (Ideal.ofBits .f32 0x3E000000#32)) (Fin.ext ?_)
    show o + 3072 + r.val = o + (3072 + 1 * r.val)
    omega
  · intro x
    obtain ⟨i, r, rfl⟩ : ∃ (i : Fin 8) (r : Fin 1024), x = ix2 i r := ⟨x 0, x 1, eq_ix2 x⟩
    refine ((congrFun (KPay.pay10_eq (F := Ideal) (View.ld w1 rW1) (View.ld w2 rW2) (View.ld b1 rB) (View.ld b2 rB) (View.ld w3 rB)
      (View.ld x3 rX)) (ix2 i r)).trans
      (tile_apply w1 w2 b1 b2 w3 x3 i r _ W1 B1 W2 B2 W3 (h3 r) hw1 hb1 hw2 hb2 hw3)).trans ?_
    refine congrArg (fun R => Cert.Mlp.headScaled (Cert.Mlp.feat (row R) W1 B1 W2 B2) W3 (Ideal.ofBits .f32 0x3E000000#32)) (Fin.ext ?_)
    show o + 2048 + r.val = o + (2048 + 1 * r.val)
    omega
  · intro x
    obtain ⟨i, r, rfl⟩ : ∃ (i : Fin 8) (r : Fin 1024), x = ix2 i r := ⟨x 0, x 1, eq_ix2 x⟩
    refine ((congrFun (KPay.pay9_eq (F := Ideal) (View.ld w1 rW1) (View.ld w2 rW2) (View.ld b1 rB) (View.ld b2 rB) (View.ld w3 rB)
      (View.ld x2 rX)) (ix2 i r)).trans
      (tile_apply w1 w2 b1 b2 w3 x2 i r _ W1 B1 W2 B2 W3 (h2 r) hw1 hb1 hw2 hb2 hw3)).trans ?_
    refine congrArg (fun R => Cert.Mlp.headScaled (Cert.Mlp.feat (row R) W1 B1 W2 B2) W3 (Ideal.ofBits .f32 0x3E000000#32)) (Fin.ext ?_)
    show o + 1024 + r.val = o + (1024 + 1 * r.val)
    omega
  · intro x
    obtain ⟨i, r, rfl⟩ : ∃ (i : Fin 8) (r : Fin 1024), x = ix2 i r := ⟨x 0, x 1, eq_ix2 x⟩
    refine (tile_apply w1 w2 b1 b2 w3 x1 i r _ W1 B1 W2 B2 W3 (h1 r) hw1 hb1 hw2 hb2 hw3).trans ?_
    refine congrArg (fun R => Cert.Mlp.headScaled (Cert.Mlp.feat (row R) W1 B1 W2 B2) W3 (Ideal.ofBits .f32 0x3E000000#32)) (Fin.ext ?_)
    show o + r.val = o + (0 + 1 * r.val)
    omega

end Cert.KernelIdeal.KValue

end
-- ==== Proof.KIFinal.lean ====
/-
  The result array of the pallas_call as one function of the launch memory.

  Point t writes back the whole [8, 4096] buffer to column block t of the [8, 16384] array; by the buffer's contents at
  an index and the input blocks' rows, what it writes is block t of the function "row i, column r ↦ the scaled head of
  input row r". Column r lies in the block of point r / 4096, so the four blocks cover the array, and the array ends
  holding that function.
-/
import proofs.«181375_g33157147525407_cont_8to1_b_505_23_alg».proof.Proof.KIOut
import proofs.«181375_g33157147525407_cont_8to1_b_505_23_alg».proof.Proof.KPay
import proofs.«181375_g33157147525407_cont_8to1_b_505_23_alg».proof.Proof.KIBlocks
import proofs.«181375_g33157147525407_cont_8to1_b_505_23_alg».proof.Proof.KITile
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ) (ρ : Dev nD → PrngReg)

/-! ## What each point writes back, the cover, and the array -/

/-- WHAT POINT `t` WRITES BACK is block `t` of the one function `G9`: the buffer's column `q` is the array's column
    `4096 t + q`, and its entry there is the scaled head of input row `4096 t + q`. -/
theorem flushed_eq (c : Dev nD) (t : Fin cfg0.N) :
    (dat0 (V1 m ρ) c).flushed 9 t = ((cfg0.win 9).blk t).view.read (Elt Ideal) (G9 m c) := by
  show (cfg0.win 9).cut (grid0.coords t) ((dat0 (V1 m ρ) c).after 9 t) = _
  rw [after0_9]
  have ht : t.val < 4 := Nat.lt_of_lt_of_eq t.isLt N_0
  funext y
  rw [View.read_apply]
  refine (out_block (iblk0 (V1 m ρ) c 0 t) (iblk0 (V1 m ρ) c 1 t) (iblk0 (V1 m ρ) c 2 t) (iblk0 (V1 m ρ) c 3 t)
    (iblk0 (V1 m ρ) c 4 t) (iblk0 (V1 m ρ) c 5 t) (iblk0 (V1 m ρ) c 6 t) (iblk0 (V1 m ρ) c 7 t) (iblk0 (V1 m ρ) c 8 t)
    (4096 * t.val) (by omega)
    (fun R d => m ((c : Thread nD τ).loc main_arg0) (ix2 R d))
    (fun j d => m ((c : Thread nD τ).loc main_arg1) (ix2 j d))
    (fun j => m ((c : Thread nD τ).loc main_arg2) (ix1 j))
    (fun k j => m ((c : Thread nD τ).loc main_arg3) (ix2 k j))
    (fun k => m ((c : Thread nD τ).loc main_arg4) (ix1 k))
    (fun k => m ((c : Thread nD τ).loc main_arg5) (ix2 (0 : Fin 1) k))
    (fun r d => xblk0_apply m ρ c t r d _ rfl)
    (fun r d => xblk1_apply m ρ c t r d _ rfl)
    (fun r d => xblk2_apply m ρ c t r d _ rfl)
    (fun r d => xblk3_apply m ρ c t r d _ rfl)
    (fun j d => (wblk4_apply m ρ c t j d).trans (congrFun (V1_main_arg1 m ρ c) (ix2 j d)))
    (fun j => (wblk5_apply m ρ c t 0 j).trans (V1_main_v0 m ρ c j))
    (fun k j => (wblk6_apply m ρ c t k j).trans (congrFun (V1_main_arg3 m ρ c) (ix2 k j)))
    (fun k => (wblk7_apply m ρ c t 0 k).trans (V1_main_v1 m ρ c k))
    (fun k => (wblk8_apply m ρ c t 0 k).trans (congrFun (V1_main_arg5 m ρ c) (ix2 (0 : Fin 1) k)))
    ((cfg0.win 9).xinj (grid0.coords t) y)).trans ?_
  have hy : (y 1).val < 4096 := (y 1).isLt
  show rowHead m c ⟨4096 * t.val + (y 1).val, by omega⟩ = rowHead m c ⟨(((cfg0.win 9).blk t).view.emb y 1).val, _⟩
  refine congrArg (rowHead m c) (Fin.ext ?_)
  show 4096 * t.val + (y 1).val = win0_9.index t (1 : Fin 2) * 4096 + 1 * (y 1).val
  rw [(idx_facts t).2.2.2.2.2.2.2.2.2.2]
  omega

/-- An index of the array is in point `t`'s block iff each coordinate is in the block's range on its axis. -/
theorem mem_blk (t : Fin cfg0.N) (i : S8x16384.Idx) :
    i ∈ ((cfg0.win 9).blk t).view.set ↔ ∀ a : Fin 2, win0_9.index t a * S8x4096.size a ≤ (i a).val
      ∧ (i a).val < win0_9.index t a * S8x4096.size a + S8x4096.size a := by
  show i ∈ ((View.whole main_v2).slice (win0_9.rect t)).set ↔ _
  rw [View.set_slice_whole, Rect.mem_set_unit]
  exact Iff.rfl

/-- The four column blocks cover the array: column `q` is in the block of point `q / 4096`. -/
theorem cover (i : S8x16384.Idx) : ∃ t : Fin cfg0.N, (cfg0.win 9).flush t = true ∧ i ∈ ((cfg0.win 9).blk t).view.set := by
  have h0 : (i 0).val < 8 := idx2_lt0 i
  have h1 : (i 1).val < 16384 := idx2_lt1 i
  have hlt : (i 1).val / 4096 < cfg0.N := Nat.lt_of_lt_of_eq (by omega : (i 1).val / 4096 < 4) N_0.symm
  refine ⟨⟨(i 1).val / 4096, hlt⟩, flush0_9 _, ?_⟩
  rw [mem_blk]
  have e := (idx_facts ⟨(i 1).val / 4096, hlt⟩).2.2.2.2.2.2.2.2.2
  have e1 : win0_9.index ⟨(i 1).val / 4096, hlt⟩ (1 : Fin 2) = (i 1).val / 4096 := e.2
  intro a
  match a with
  | ⟨0, _⟩ =>
    show win0_9.index _ (0 : Fin 2) * 8 ≤ (i 0).val ∧ (i 0).val < win0_9.index _ (0 : Fin 2) * 8 + 8
    rw [e.1]; omega
  | ⟨1, _⟩ =>
    show win0_9.index _ (1 : Fin 2) * 4096 ≤ (i 1).val ∧ (i 1).val < win0_9.index _ (1 : Fin 2) * 4096 + 4096
    rw [e1]; omega

/-- THE ARRAY the pallas_call leaves: row `i`, column `r` holds the scaled head of input row `r`. -/
theorem out_final (m : (ℓ : Loc nD τ sig) → Buf (Elt Ideal) ℓ) (ρ : Dev nD → PrngReg) (c : Dev nD) :
    (dat0 (V1 m ρ) c).arrAt 9 cfg0.N = G9 m c :=
  (dat0 (V1 m ρ) c).arrAt_eq_of_cover 9 (G9 m c) (fun t _ => flushed_eq m ρ c t) cover

end Cert.KernelIdeal.KValue

end
-- ==== Proof.KITail.lean ====
/-
  The six operations that follow the region, read at an index: the returned [16384, 1] array holds, at row `r`, zero plus
  the sum over the eight rows of the region's [8, 16384] result at column `r`, plus the last bias.
-/
import proofs.«181375_g33157147525407_cont_8to1_b_505_23_alg».proof.Proof.KIOut
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ) (ρ : Dev nD → PrngReg)

/-- The six operations after the region as one function of the result array and the last bias: the sum over the eight rows
    from zero, plus the bias at every column, as one column. -/
def tail (y : (⟨S8x16384, .f32⟩ : BufTy).Contents (Elt Ideal)) (b : (⟨S1, .f32⟩ : BufTy).Contents (Elt Ideal)) :
    (⟨S16384x1, .f32⟩ : BufTy).Contents (Elt Ideal) :=
  shapeCast S16384x1
    (addf (Host.reduceAdd (F := Ideal) y (constant (F := Ideal) S_ .f32 0x00000000#32) reducesTo_S8x16384_S16384_d0 h_S_)
      (broadcastInDim S16384 ![] bcast_S_S16384 (shapeCast S_ b shapeCasts_S1_S_)))
    shapeCasts_S16384_S16384x1

/-- The returned array is the tail of the region's result array and of the last bias as the region left it. -/
theorem W3_v7 (c : Dev nD) :
    W3 m ρ c (Proc.devRef .tc main_v7)
      = tail (W2 m ρ c (Proc.devRef .tc main_v2)) (W2 m ρ c (Proc.devRef .tc main_arg6)) := by
  show StableHlo.after hostOps1 _ (Proc.devRef .tc main_v7) = _
  after_results
  rfl

/-- The last bias reaches the tail as launched: neither the region nor the two reshapes before it write it. -/
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg6) := rfl

/-- The tail read at row `r`: zero plus the sum of the eight rows' entries at column `r`, plus the bias. -/
theorem tail_apply (y : (⟨S8x16384, .f32⟩ : BufTy).Contents (Elt Ideal)) (b : (⟨S1, .f32⟩ : BufTy).Contents (Elt Ideal))
    (r : Fin 16384) :
    (tail y b : S16384x1.Idx → EReal) (ix2 r (0 : Fin 1))
      = (0 + ∑ i : Fin 8, (y : S8x16384.Idx → EReal) (ix2 i r)) + (b : S1.Idx → EReal) (ix1 (0 : Fin 1)) := by
  unfold tail
  -- the column [16384, 1] at (r, 0) is the vector [16384] at r
  refine (shapeCast_apply _ shapeCasts_S16384_S16384x1 (ix2 r (0 : Fin 1)) (ix1 r) ?_).trans ?_
  · rw [Shape.rowMajor_val_one, Shape.rowMajor_val_two]
    show r.val = r.val * 1 + 0
    omega
  refine (addf_apply _ _ (ix1 r)).trans ?_
  refine congrArg₂ (fun (p q : EReal) => p + q) ?_ ?_
  · -- the sum over axis 0 from the zero constant
    refine (hostReduceAdd_apply y _ reducesTo_S8x16384_S16384_d0 h_S_ (ix1 r)).trans ?_
    rw [Ideal.hostReduceAdd_single reducesTo_S8x16384_S16384_d0 (by decide : S8x16384.Reduces [0] S16384)]
    rw [constant_apply, Ideal.ofBits_zero_f32]
    refine congrArg (fun s : EReal => 0 + s) ?_
    refine Finset.sum_congr rfl fun k _ => congrArg y ?_
    funext a
    match a with
    | ⟨0, _⟩ => exact Fin.ext rfl
    | ⟨1, _⟩ => exact Fin.ext rfl
  · -- the scalar broadcast along the columns, the scalar being the one-entry vector's entry
    refine (broadcastInDim_apply _ bcast_S_S16384 _ (ix1 r) ix0 (fun a => a.elim0)).trans ?_
    refine shapeCast_apply b shapeCasts_S1_S_ ix0 (ix1 (0 : Fin 1)) ?_
    rw [Shape.rowMajor_val_one]
    show 0 = (Shape.rowMajorPi _ _).val
    rw [Shape.rowMajorPi_zero]

/-- The returned array at row `r`. -/
theorem result_apply (c : Dev nD) (r : Fin 16384) :
    res7 m ρ c (ix2 r (0 : Fin 1)) = (0 + ∑ i : Fin 8, res2 m ρ c (ix2 i r)) + bias3 m c (ix1 (0 : Fin 1)) := by
  show (W3 m ρ c (Proc.devRef .tc main_v7) : S16384x1.Idx → EReal) (ix2 r (0 : Fin 1)) = _
  rw [W3_v7 m ρ c, W2_main_arg6 m ρ c]
  exact tail_apply _ _ r

end Cert.KernelIdeal.KValue

end
-- ==== Proof.RefValue.lean ====
/-
  The reference program computes the specification, row by row.

  Read at row `r`, the reference's first rectified layer is `hid1` of the row, its second is `feat`, and its result
  is `outRef` of `feat`: each dense layer is a sum of products with the activations on the left, plus the bias, and
  each rectifier is the maximum with zero on the right. The index maps of the transposes, broadcasts and contractions
  compose to the plain coordinates.
-/
import proofs.«181375_g33157147525407_cont_8to1_b_505_23_alg».proof.Proof.Gen.ReferenceIdeal.Read
import proofs.«181375_g33157147525407_cont_8to1_b_505_23_alg».proof.Proof.MlpSpec
import Idealize.ShloMosaic.Lib.ValueIdx
import Idealize.ShloMosaic.PureOps.Ideal
import Idealize.ShloMosaic.PureOps.Ideal.Laws

open scoped BigOperators

noncomputable section

namespace Cert.ReferenceIdeal.RefValue

open Idealize.ShloMosaic Idealize.ShloMosaic.ValueIdx Cert.ReferenceIdeal Cert.ReferenceIdeal.Read

/-! ## The index maps at coordinates -/

/-- First contraction, left operand: row `r`, contraction coordinate `d`. -/
theorem lidx1 (r : Fin 16384) (j : Fin 64) (d : Fin 128) : lidx_main_v1 (ix2 r j) d = ix2 r d :=
  funext fun a => Fin.ext (by match a with | ⟨0, _⟩ => rfl | ⟨1, _⟩ => rfl)

/-- First contraction, right operand through the transpose: unit `j`, contraction coordinate `d`. -/
theorem ridx1 (r : Fin 16384) (j : Fin 64) (d : Fin 128) : idx_main_v0 (ridx_main_v1 (ix2 r j) d) = ix2 j d :=
  funext fun a => Fin.ext (by match a with | ⟨0, _⟩ => rfl | ⟨1, _⟩ => rfl)

/-- First bias through its two broadcasts: unit `j`. -/
theorem bidx1 (r : Fin 16384) (j : Fin 64) : idx_main_v2 (idx_main_v3 (ix2 r j)) = ix1 j :=
  funext fun a => Fin.ext (by match a with | ⟨0, _⟩ => rfl)

/-- Second contraction, left operand: row `r`, contraction coordinate `j`. -/
theorem lidx2 (r : Fin 16384) (k : Fin 64) (j : Fin 64) : lidx_main_v7 (ix2 r k) j = ix2 r j :=
  funext fun a => Fin.ext (by match a with | ⟨0, _⟩ => rfl | ⟨1, _⟩ => rfl)

/-- Second contraction, right operand through the transpose: unit `k`, contraction coordinate `j`. -/
theorem ridx2 (r : Fin 16384) (k : Fin 64) (j : Fin 64) : idx_main_v6 (ridx_main_v7 (ix2 r k) j) = ix2 k j :=
  funext fun a => Fin.ext (by match a with | ⟨0, _⟩ => rfl | ⟨1, _⟩ => rfl)

/-- Second bias through its two broadcasts: unit `k`. -/
theorem bidx2 (r : Fin 16384) (k : Fin 64) : idx_main_v8 (idx_main_v9 (ix2 r k)) = ix1 k :=
  funext fun a => Fin.ext (by match a with | ⟨0, _⟩ => rfl)

/-- Head contraction, left operand: row `r`, contraction coordinate `k`. -/
theorem lidx3 (r : Fin 16384) (k : Fin 64) : lidx_main_v13 (ix2 r (0 : Fin 1)) k = ix2 r k :=
  funext fun a => Fin.ext (by match a with | ⟨0, _⟩ => rfl | ⟨1, _⟩ => rfl)

/-- Head contraction, right operand through the transpose: the one head row, contraction coordinate `k`. -/
theorem ridx3 (r : Fin 16384) (k : Fin 64) :
    idx_main_v12 (ridx_main_v13 (ix2 r (0 : Fin 1)) k) = ix2 (0 : Fin 1) k :=
  funext fun a => Fin.ext (by match a with | ⟨0, _⟩ => rfl | ⟨1, _⟩ => rfl)

/-- Head bias through its two broadcasts: its one entry. -/
theorem bidx3 (r : Fin 16384) : idx_main_v14 (idx_main_v15 (ix2 r (0 : Fin 1))) = ix1 (0 : Fin 1) :=
  funext fun a => Fin.ext (by match a with | ⟨0, _⟩ => rfl)

/-! ## The three layers -/

/-- The first rectified layer at row `r`, unit `j`. -/
theorem layer1_apply
    (x0 : (⟨S16384x128, .f32⟩ : BufTy).Contents (Elt Ideal)) (x1 : (⟨S64x128, .f32⟩ : BufTy).Contents (Elt Ideal))
    (x2 : (⟨S64, .f32⟩ : BufTy).Contents (Elt Ideal)) (r : Fin 16384) (j : Fin 64) :
    val_main_v5 (F := Ideal) x0 x1 x2 (ix2 r j)
      = Cert.Mlp.hid1 (fun d => x0 (ix2 r d)) (fun j d => x1 (ix2 j d)) (fun j => x2 (ix1 j)) j := by
  unfold Cert.Mlp.hid1
  rw [val_main_v5_apply, val_main_v4_apply, val_main_v1_apply, val_main_v3_apply, val_main_v2_apply,
    val_main_call0_v0_apply, val_main_call0_cst_apply, bidx1]
  have hs : (∑ d : Fin 128, x0 (lidx_main_v1 (ix2 r j) d) * (val_main_v0 (F := Ideal) x1) (ridx_main_v1 (ix2 r j) d))
      = ∑ d : Fin 128, x0 (ix2 r d) * x1 (ix2 j d) :=
    Finset.sum_congr rfl fun d _ => by rw [val_main_v0_apply, lidx1, ridx1]
  rw [hs, Ideal.ofBits_def, Ideal.ofBits_zero_f32, Ideal.addf_def, Ideal.maximumf_def]

/-- The second rectified layer at row `r`, unit `k`. -/
theorem layer2_apply
    (x0 : (⟨S16384x128, .f32⟩ : BufTy).Contents (Elt Ideal)) (x1 : (⟨S64x128, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (r : Fin 16384) (k : Fin 64) :
    val_main_v11 (F := Ideal) x0 x1 x2 x3 x4 (ix2 r k)
      = Cert.Mlp.feat (fun d => x0 (ix2 r d)) (fun j d => x1 (ix2 j d)) (fun j => x2 (ix1 j))
          (fun k j => x3 (ix2 k j)) (fun k => x4 (ix1 k)) k := by
  unfold Cert.Mlp.feat Cert.Mlp.hid2
  rw [val_main_v11_apply, val_main_v10_apply, val_main_v7_apply, val_main_v9_apply, val_main_v8_apply,
    val_main_call1_v0_apply, val_main_call1_cst_apply, bidx2]
  have hs : (∑ j : Fin 64, (val_main_v5 (F := Ideal) x0 x1 x2) (lidx_main_v7 (ix2 r k) j)
        * (val_main_v6 (F := Ideal) x3) (ridx_main_v7 (ix2 r k) j))
      = ∑ j : Fin 64, Cert.Mlp.hid1 (fun d => x0 (ix2 r d)) (fun j d => x1 (ix2 j d)) (fun j => x2 (ix1 j)) j
          * x3 (ix2 k j) :=
    Finset.sum_congr rfl fun j _ => by rw [val_main_v6_apply, lidx2, ridx2, layer1_apply]
  rw [hs, Ideal.ofBits_def, Ideal.ofBits_zero_f32, Ideal.addf_def, Ideal.maximumf_def]

/-- The reference's result at row `r` is the specification's. -/
theorem ref_apply
    (x0 : (⟨S16384x128, .f32⟩ : BufTy).Contents (Elt Ideal)) (x1 : (⟨S64x128, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S1x64, .f32⟩ : BufTy).Contents (Elt Ideal))
    (x6 : (⟨S1, .f32⟩ : BufTy).Contents (Elt Ideal)) (r : Fin 16384) :
    val_main_v16 (F := Ideal) x0 x1 x2 x3 x4 x5 x6 (ix2 r (0 : Fin 1))
      = Cert.Mlp.outRef
          (Cert.Mlp.feat (fun d => x0 (ix2 r d)) (fun j d => x1 (ix2 j d)) (fun j => x2 (ix1 j))
            (fun k j => x3 (ix2 k j)) (fun k => x4 (ix1 k)))
          (fun k => x5 (ix2 (0 : Fin 1) k)) (x6 (ix1 (0 : Fin 1))) := by
  unfold Cert.Mlp.outRef
  rw [val_main_v16_apply, val_main_v13_apply, val_main_v15_apply, val_main_v14_apply, bidx3]
  have hs : (∑ k : Fin 64, (val_main_v11 (F := Ideal) x0 x1 x2 x3 x4) (lidx_main_v13 (ix2 r (0 : Fin 1)) k)
        * (val_main_v12 (F := Ideal) x5) (ridx_main_v13 (ix2 r (0 : Fin 1)) k))
      = ∑ k : Fin 64, Cert.Mlp.feat (fun d => x0 (ix2 r d)) (fun j d => x1 (ix2 j d)) (fun j => x2 (ix1 j))
          (fun k j => x3 (ix2 k j)) (fun k => x4 (ix1 k)) k * x5 (ix2 (0 : Fin 1) k) :=
    Finset.sum_congr rfl fun k _ => by rw [val_main_v12_apply, lidx3, ridx3, layer2_apply]
  rw [hs, Ideal.addf_def]

end Cert.ReferenceIdeal.RefValue

end
-- ==== Proof.MlpLaw.lean ====
/-
  The algebra between the two arrangements of the head, and the fact that the two hidden layers of real data are real.

  Eight copies of a sum whose weights carry the factor one eighth add up to the sum itself: over the reals,
  8 · ∑ k, (w k · (1/8)) · h k = ∑ k, h k · w k. On the extended reals this holds as soon as every h k and w k is real,
  since then every term is the image of a real and the image map commutes with products, sums and maxima.
-/
import proofs.«181375_g33157147525407_cont_8to1_b_505_23_alg».proof.Proof.MlpSpec
import Mathlib.Data.EReal.Basic
import Mathlib.Algebra.BigOperators.Ring.Finset
import Mathlib.Tactic.Ring
import Mathlib.Tactic.NormNum

open scoped BigOperators

namespace Cert.Mlp

/-- The image of a finite sum of reals is the sum of the images. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The image of the rectifier of a real is the rectifier of the image. -/
theorem coe_relu (r : ℝ) : max (r : EReal) 0 = ((max r 0 : ℝ) : EReal) := by
  rw [← EReal.coe_zero]
  exact (EReal.coe_strictMono.monotone.map_max).symm

/-- A dense layer with a rectifier maps real data to a real: the general form of both hidden layers. -/
theorem relu_dense_real {n : ℕ} (x w : Fin n → EReal) (b : EReal)
    (hx : ∀ d, ∃ a : ℝ, x d = (a : EReal)) (hw : ∀ d, ∃ a : ℝ, w d = (a : EReal)) (hb : ∃ a : ℝ, b = (a : EReal)) :
    ∃ a : ℝ, max ((∑ d : Fin n, x d * w d) + b) 0 = (a : EReal) := by
  choose xr hxr using hx
  choose wr hwr using hw
  obtain ⟨br, hbr⟩ := hb
  refine ⟨max ((∑ d : Fin n, xr d * wr d) + br) 0, ?_⟩
  rw [← coe_relu, EReal.coe_add, coe_sum, hbr]
  congr 2
  refine Finset.sum_congr rfl fun d _ => ?_
  rw [hxr d, hwr d, EReal.coe_mul]

theorem outKernel_eq_outRef (h2 w3 : Fin 64 → EReal) (b3 : EReal)
    (hh : ∀ k, ∃ a : ℝ, h2 k = (a : EReal)) (hw : ∀ k, ∃ a : ℝ, w3 k = (a : EReal)) :
    outKernel h2 w3 (((1 / 8 : ℝ) : EReal)) b3 = outRef h2 w3 b3 := by
  choose a ha using hh
  choose c hc using hw
  have hhead : headScaled h2 w3 (((1 / 8 : ℝ) : EReal)) = ((∑ k : Fin 64, (c k * (1 / 8)) * a k : ℝ) : EReal) := by
    unfold headScaled
    rw [coe_sum]
    refine Finset.sum_congr rfl fun k _ => ?_
    rw [ha k, hc k, EReal.coe_mul, EReal.coe_mul]
  have href : (∑ k : Fin 64, h2 k * w3 k) = ((∑ k : Fin 64, a k * c k : ℝ) : EReal) := by
    rw [coe_sum]
    refine Finset.sum_congr rfl fun k _ => ?_
    rw [ha k, hc k, EReal.coe_mul]
  unfold outKernel outRef
  rw [hhead, href, zero_add, ← coe_sum]
  congr 2
  rw [Finset.sum_const, Finset.card_univ, Fintype.card_fin, nsmul_eq_mul, Finset.mul_sum]
  refine Finset.sum_congr rfl fun k _ => ?_
  push_cast
  ring

theorem feat_real (x : Fin 128 → EReal) (w1 : Fin 64 → Fin 128 → EReal) (b1 : Fin 64 → EReal)
    (w2 : Fin 64 → Fin 64 → EReal) (b2 : Fin 64 → EReal)
    (hx : ∀ d, ∃ a : ℝ, x d = (a : EReal)) (hw1 : ∀ j d, ∃ a : ℝ, w1 j d = (a : EReal)) (hb1 : ∀ j, ∃ a : ℝ, b1 j = (a : EReal))
    (hw2 : ∀ k j, ∃ a : ℝ, w2 k j = (a : EReal)) (hb2 : ∀ k, ∃ a : ℝ, b2 k = (a : EReal)) (k : Fin 64) :
    ∃ a : ℝ, feat x w1 b1 w2 b2 k = (a : EReal) := by
  unfold feat hid2
  exact relu_dense_real _ _ _ (fun j => by unfold hid1; exact relu_dense_real _ _ _ hx (hw1 j) (hb1 j)) (hw2 k) (hb2 k)

/-- The single-precision word 0x3E000000 (sign 0, exponent 124, mantissa 0) denotes 2⁻³, one eighth. -/
theorem eighth : (Idealize.ShloMosaic.Ideal.ofBits .f32 0x3E000000#32 : EReal) = (((1 / 8 : ℝ)) : EReal) := by
  simp [Idealize.ShloMosaic.Ideal.ofBits, Idealize.ShloMosaic.Ideal.ieee, -EReal.coe_mul]; norm_num

end Cert.Mlp
-- ==== Proof.Finite.lean ====
/-
  From the precondition to the real line: when the predicate "every entry of every argument has absolute value
  below +∞" comes out true, every entry of each of the seven argument arrays is a real number.

  On the extended reals |x| is max x (-x), and max x (-x) < ⊤ fails exactly at x = ⊤ and x = ⊥; what is left is the
  image of a real. The predicate is a conjunction of seven reductions by "and" over whole arrays, each of which is true
  only if the comparison is true at every index.
-/
import proofs.«181375_g33157147525407_cont_8to1_b_505_23_alg».proof.Defs
import proofs.«181375_g33157147525407_cont_8to1_b_505_23_alg».proof.Proof.Gen.Pre_finite_inputs
import Idealize.ShloMosaic.Lib.ReduceAll
import Idealize.ShloMosaic.Lib.ValueIdx
import Mathlib.Data.EReal.Basic

namespace Cert.Finite

open Idealize.ShloMosaic Idealize.SL.Sem
open Cert.Pre_finite_inputs (S_)

/-- The shape with no axes has exactly one index. -/
instance : Subsingleton S_.Idx := ⟨fun _ _ => funext fun d => d.elim0⟩

/-- The single-precision word 0x7F800000 (exponent all ones, mantissa zero) denotes +∞. -/
theorem inf_word : Ideal.ofBits .f32 0x7F800000#32 = (⊤ : EReal) := by
  simp [Ideal.ofBits, Ideal.ieee]

/-- An extended real whose absolute value max x (-x) lies strictly below ⊤ is a real. -/
theorem real_of_abs_lt_top (x : EReal) (h : max x (-x) < ⊤) : ∃ a : ℝ, x = (a : EReal) := by
  induction x using EReal.rec with
  | bot => simp at h
  | coe a => exact ⟨a, rfl⟩
  | top => simp at h

/-- One value: if the comparison |x| < +∞ is true of x, then x is a real. -/
theorem real_of_finite_bit (x : EReal)
    (h : Ideal.cmp .olt (max x (-x)) (Ideal.ofBits .f32 0x7F800000#32) = 1#1) : ∃ a : ℝ, x = (a : EReal) := by
  rw [inf_word] at h
  unfold Ideal.cmp at h
  refine real_of_abs_lt_top x ?_
  by_contra hn
  simp [hn] at h

/-- One array of any shape: if "all entries have |x| < +∞" reduces to true, every entry is a real. -/
theorem entries_real {s : Shape} {axes : List (Fin s.rank)}
    (hb : S_.BroadcastsInDim s (![] : Fin 0 → Fin s.rank)) (hr : s.ReducesTo axes S_) (hu : 0 < S_.numel)
    (x : FVec Ideal s .f32)
    (h : Host.reduce IntOp.andi
          (cmpf .olt (Host.absf x) (broadcastInDim s ![] hb (constant (F := Ideal) S_ .f32 0x7F800000#32)))
          (constantI S_ 1 1#1) hr hu ValueIdx.ix0 = 1#1) :
    ∀ i, ∃ a : ℝ, x i = (a : EReal) := by
  intro i
  have hi := Host.reduce_andi_all _ _ hr hu _ h i
  exact real_of_finite_bit (x i) hi

/-- Every entry of each of the kernel's seven argument arrays is a real, on every device. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ a : ℝ, m ((c.tc : Thread Cert.KernelIdeal.nD Cert.KernelIdeal.τ).loc Cert.KernelIdeal.main_arg0) i = (a : EReal))
    ∧ (∀ i, ∃ a : ℝ, m ((c.tc : Thread Cert.KernelIdeal.nD Cert.KernelIdeal.τ).loc Cert.KernelIdeal.main_arg1) i = (a : EReal))
    ∧ (∀ i, ∃ a : ℝ, m ((c.tc : Thread Cert.KernelIdeal.nD Cert.KernelIdeal.τ).loc Cert.KernelIdeal.main_arg2) i = (a : EReal))
    ∧ (∀ i, ∃ a : ℝ, m ((c.tc : Thread Cert.KernelIdeal.nD Cert.KernelIdeal.τ).loc Cert.KernelIdeal.main_arg3) i = (a : EReal))
    ∧ (∀ i, ∃ a : ℝ, m ((c.tc : Thread Cert.KernelIdeal.nD Cert.KernelIdeal.τ).loc Cert.KernelIdeal.main_arg4) i = (a : EReal))
    ∧ (∀ i, ∃ a : ℝ, m ((c.tc : Thread Cert.KernelIdeal.nD Cert.KernelIdeal.τ).loc Cert.KernelIdeal.main_arg5) i = (a : EReal))
    ∧ (∀ i, ∃ a : ℝ, m ((c.tc : Thread Cert.KernelIdeal.nD Cert.KernelIdeal.τ).loc Cert.KernelIdeal.main_arg6) i = (a : EReal)) := by
  have h0 := congrFun (h c) ValueIdx.ix0
  dsimp only [Cert.Pre_finite_inputs.fn, Cert.Pre_finite_inputs.fn_part1, Idealize.ShloMosaic.andi] at h0
  simp only [IntOp.andi_eq_one] at h0
  obtain ⟨⟨⟨⟨⟨⟨h0, h1⟩, h2⟩, h3⟩, h4⟩, h5⟩, h6⟩ := h0
  exact ⟨entries_real _ _ _ _ h0, entries_real _ _ _ _ h1, entries_real _ _ _ _ h2, entries_real _ _ _ _ h3,
    entries_real _ _ _ _ h4, entries_real _ _ _ _ h5, entries_real _ _ _ _ h6⟩

end Cert.Finite
-- ==== Proof.lean ====
/-
  A fused three-layer perceptron over 16384 rows of 128 features against its plain reference.

  Both programs compute, for each row, `h1 = max (x · W1ᵀ + b1) 0`, `h2 = max (h1 · W2ᵀ + b2) 0` and the one-unit head
  `h2 · W3ᵀ + b3`. The kernel streams the rows through one pallas_call in four grid steps of 4096 rows, each step's rows
  read through four windows of 1024 rows on the one input array; it computes the head EIGHT times over, with the head
  weights scaled by one eighth, as an [8, 16384] array, and the host adds the eight rows up and adds the bias. On the
  extended reals every format change is the identity and each matrix product is the plain sum, so the kernel's result
  at row `r` is `(0 + ∑ over 8 copies of ∑ k, (W3 k · ⅛) · h2 k) + b3` and the reference's is `(∑ k, h2 k · W3 k) + b3`.
  These agree when every number is a real — eight equal real terms of one eighth of the head add up to the head — and
  that is what the precondition (every input finite) gives: the claim uses it.

  The pieces: the frame of the kernel's program, for any float instance (the body's run on one grid point, the
  pipeline's proof data with the input array's share dealt in quarters to its four windows, @main as three segments);
  the pallas_call's result array as one function of the arguments; the closing host operations read at an index; the
  reference read at an index; the law on the reals; finiteness read out of the precondition.
-/
import proofs.«181375_g33157147525407_cont_8to1_b_505_23_alg».proof.Defs
import proofs.«181375_g33157147525407_cont_8to1_b_505_23_alg».proof.Proof.Gen.Kernel
import proofs.«181375_g33157147525407_cont_8to1_b_505_23_alg».proof.Proof.Gen.KernelIdeal
import proofs.«181375_g33157147525407_cont_8to1_b_505_23_alg».proof.Proof.Gen.ReferenceIdeal
import proofs.«181375_g33157147525407_cont_8to1_b_505_23_alg».proof.Proof.Gen.Pre_finite_inputs
import proofs.«181375_g33157147525407_cont_8to1_b_505_23_alg».proof.Proof.KRegion
import proofs.«181375_g33157147525407_cont_8to1_b_505_23_alg».proof.Proof.KIOut
import proofs.«181375_g33157147525407_cont_8to1_b_505_23_alg».proof.Proof.KIFinal
import proofs.«181375_g33157147525407_cont_8to1_b_505_23_alg».proof.Proof.KITail
import proofs.«181375_g33157147525407_cont_8to1_b_505_23_alg».proof.Proof.Gen.ReferenceIdeal.Run
import proofs.«181375_g33157147525407_cont_8to1_b_505_23_alg».proof.Proof.Gen.ReferenceIdeal.Read
import proofs.«181375_g33157147525407_cont_8to1_b_505_23_alg».proof.Proof.RefValue
import proofs.«181375_g33157147525407_cont_8to1_b_505_23_alg».proof.Proof.MlpLaw
import proofs.«181375_g33157147525407_cont_8to1_b_505_23_alg».proof.Proof.Finite
import Idealize.ShloMosaic.Adequacy
import Idealize.ShloMosaic.Init

noncomputable section

/-! ## The kernel's result, row by row -/

namespace Cert.KernelIdeal.KValue

open Idealize.ShloMosaic Idealize.ShloMosaic.TcCoe Idealize.ShloMosaic.ValueIdx Idealize.SL.Sem
open Cert.KernelIdeal Cert.KernelIdeal.Gen Cert.KernelIdeal.Body

/-- The program's result at row `r`: the eight head rows of the pallas_call's array summed from zero, plus the bias —
    the specification's `outKernel` of row `r`'s features. -/
theorem kernel_value (m : (ℓ : Loc nD τ sig) → Buf (Elt Ideal) ℓ) (ρ : Dev nD → PrngReg) (c : Dev nD) (r : Fin 16384) :
    res7 m ρ c (ix2 r (0 : Fin 1))
      = Cert.Mlp.outKernel
          (Cert.Mlp.feat (fun d => m ((c : Thread nD τ).loc main_arg0) (ix2 r d)) (fun j d => m ((c : Thread nD τ).loc main_arg1) (ix2 j d))
            (fun j => m ((c : Thread nD τ).loc main_arg2) (ix1 j)) (fun k j => m ((c : Thread nD τ).loc main_arg3) (ix2 k j))
            (fun k => m ((c : Thread nD τ).loc main_arg4) (ix1 k)))
          (fun k => m ((c : Thread nD τ).loc main_arg5) (ix2 (0 : Fin 1) k)) (Ideal.ofBits .f32 0x3E000000#32)
          (m ((c : Thread nD τ).loc main_arg6) (ix1 (0 : Fin 1))) := by
  rw [result_apply]
  unfold res2
  rw [W2_out, out_final]
  rfl

end Cert.KernelIdeal.KValue

/-! ## The claims -/

namespace Cert.Proof

open Idealize.ShloMosaic Idealize.ShloMosaic.TcCoe Idealize.ShloMosaic.ValueIdx Idealize.SL.Sem

/-- The word-level program runs and leaves its arguments as launched: the run's last contents at each argument's
    buffer walk back to the launch memory. -/
theorem frame_k : Cert.frame_Kernel := fun m ρ _ =>
  (θ_run Cert.Kernel.defs _ _).mono (fun r h c => ⟨(h c _ (Cert.Kernel.Body.mem_uc Cert.Kernel.main_arg0 (by decide))).trans (Cert.Kernel.Body.W3_main_arg0 m ρ c),
    (h c _ (Cert.Kernel.Body.mem_uc Cert.Kernel.main_arg1 (by decide))).trans (Cert.Kernel.Body.W3_main_arg1 m ρ c),
    (h c _ (Cert.Kernel.Body.mem_uc Cert.Kernel.main_arg2 (by decide))).trans (Cert.Kernel.Body.W3_main_arg2 m ρ c),
    (h c _ (Cert.Kernel.Body.mem_uc Cert.Kernel.main_arg3 (by decide))).trans (Cert.Kernel.Body.W3_main_arg3 m ρ c),
    (h c _ (Cert.Kernel.Body.mem_uc Cert.Kernel.main_arg4 (by decide))).trans (Cert.Kernel.Body.W3_main_arg4 m ρ c),
    (h c _ (Cert.Kernel.Body.mem_uc Cert.Kernel.main_arg5 (by decide))).trans (Cert.Kernel.Body.W3_main_arg5 m ρ c),
    (h c _ (Cert.Kernel.Body.mem_uc Cert.Kernel.main_arg6 (by decide))).trans (Cert.Kernel.Body.W3_main_arg6 m ρ c)⟩)
    (Cert.Kernel.Body.run_main (F := Bits) m ρ)

/-- The idealized program likewise. -/
theorem frame_ki : Cert.frame_KernelIdeal := fun m ρ _ =>
  (θ_run Cert.KernelIdeal.defs _ _).mono (fun r h c => ⟨(h c _ (Cert.KernelIdeal.Body.mem_uc Cert.KernelIdeal.main_arg0 (by decide))).trans (Cert.KernelIdeal.Body.W3_main_arg0 m ρ c),
    (h c _ (Cert.KernelIdeal.Body.mem_uc Cert.KernelIdeal.main_arg1 (by decide))).trans (Cert.KernelIdeal.Body.W3_main_arg1 m ρ c),
    (h c _ (Cert.KernelIdeal.Body.mem_uc Cert.KernelIdeal.main_arg2 (by decide))).trans (Cert.KernelIdeal.Body.W3_main_arg2 m ρ c),
    (h c _ (Cert.KernelIdeal.Body.mem_uc Cert.KernelIdeal.main_arg3 (by decide))).trans (Cert.KernelIdeal.Body.W3_main_arg3 m ρ c),
    (h c _ (Cert.KernelIdeal.Body.mem_uc Cert.KernelIdeal.main_arg4 (by decide))).trans (Cert.KernelIdeal.Body.W3_main_arg4 m ρ c),
    (h c _ (Cert.KernelIdeal.Body.mem_uc Cert.KernelIdeal.main_arg5 (by decide))).trans (Cert.KernelIdeal.Body.W3_main_arg5 m ρ c),
    (h c _ (Cert.KernelIdeal.Body.mem_uc Cert.KernelIdeal.main_arg6 (by decide))).trans (Cert.KernelIdeal.Body.W3_main_arg6 m ρ c)⟩)
    (Cert.KernelIdeal.Body.run_main (F := Ideal) m ρ)

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- On the extended reals both programs end with, at row `r`, the head of the row's features plus the bias: the
    kernel as eight copies of the head scaled by one eighth and summed (`kernel_value`), the reference once
    (`ref_apply`). The inputs being finite, every feature and weight is a real, and over the reals the eight
    scaled copies add up to the head (`outKernel_eq_outRef`). -/
theorem algebraic : Cert.algebraic_KernelIdeal_ReferenceIdeal := by
  intro m ρ m' ρ' hpre hagree
  refine ⟨fun c => Cert.KernelIdeal.Body.W3 m ρ c (Proc.devRef .tc Cert.KernelIdeal.main_v7), ?_, ?_⟩
  · exact (θ_run Cert.KernelIdeal.defs _ _).mono (fun r h c => ⟨h c _ (Cert.KernelIdeal.Body.mem_uc Cert.KernelIdeal.main_v7 (by decide)),
      (h c _ (Cert.KernelIdeal.Body.mem_uc Cert.KernelIdeal.main_arg0 (by decide))).trans (Cert.KernelIdeal.Body.W3_main_arg0 m ρ c),
      (h c _ (Cert.KernelIdeal.Body.mem_uc Cert.KernelIdeal.main_arg1 (by decide))).trans (Cert.KernelIdeal.Body.W3_main_arg1 m ρ c),
      (h c _ (Cert.KernelIdeal.Body.mem_uc Cert.KernelIdeal.main_arg2 (by decide))).trans (Cert.KernelIdeal.Body.W3_main_arg2 m ρ c),
      (h c _ (Cert.KernelIdeal.Body.mem_uc Cert.KernelIdeal.main_arg3 (by decide))).trans (Cert.KernelIdeal.Body.W3_main_arg3 m ρ c),
      (h c _ (Cert.KernelIdeal.Body.mem_uc Cert.KernelIdeal.main_arg4 (by decide))).trans (Cert.KernelIdeal.Body.W3_main_arg4 m ρ c),
      (h c _ (Cert.KernelIdeal.Body.mem_uc Cert.KernelIdeal.main_arg5 (by decide))).trans (Cert.KernelIdeal.Body.W3_main_arg5 m ρ c),
      (h c _ (Cert.KernelIdeal.Body.mem_uc Cert.KernelIdeal.main_arg6 (by decide))).trans (Cert.KernelIdeal.Body.W3_main_arg6 m ρ c)⟩)
      (Cert.KernelIdeal.Body.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    obtain ⟨f0, f1, f2, f3, f4, f5, f6⟩ := Cert.Finite.args_real m hpre c
    rw [Cert.ReferenceIdeal.Read.val_main_v16_eq, h0, h1, h2, h3, h4, h5, h6]
    funext j
    obtain ⟨r, q, rfl⟩ : ∃ (r : Fin 16384) (q : Fin 1), j = ix2 r q := ⟨j 0, j 1, eq_ix2 j⟩
    obtain rfl : q = 0 := Subsingleton.elim _ _
    refine (Cert.ReferenceIdeal.RefValue.ref_apply _ _ _ _ _ _ _ r).trans ?_
    refine Eq.trans ?_ (Cert.KernelIdeal.KValue.kernel_value m ρ c r).symm
    rw [Cert.Mlp.eighth]
    exact (Cert.Mlp.outKernel_eq_outRef _ _ _
      (Cert.Mlp.feat_real _ _ _ _ _ (fun d => f0 _) (fun j d => f1 _) (fun j => f2 _) (fun k j => f3 _) (fun k => f4 _))
      (fun k => f5 _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
